-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S65536x1024 .f32) (main_arg1 : FVec F S65536x1024 .f32) (main_arg2 : FVec F S1024 .f32) (main_arg3 : FVec F S1024 .f32) (main_arg4 : FVec F S1024 .f32) (main_arg5 : FVec F S1024 .f32) (main_arg6 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S65536x1024 : Shape := ⟨2, ![65536, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S512x1024 : Shape := ⟨2, ![512, 1024]⟩

abbrev nBuf : Space → Nat
  | .hbm => 63
  | .vmem => 27
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S65536x1024, .f32⟩
  | .hbm, ⟨62, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42_0 : Ref sig .tc := ⟨.hbm, 61, rfl⟩
abbrev main_v42_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem12_1 : DmaSem sig := 24
abbrev cc1_sem13_0 : DmaSem sig := 25
abbrev cc1_sem13_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  inb_S1x1024_S1x1024_0_0 : ∀ a, (![0, 0] : Fin 2 → Nat) a + S1x1024.size a ≤ S1x1024.size a
  h_S1x1024 : 0 < S1x1024.numel
  inb_S1024x1024_S1024x1024_0_0 : ∀ a, (![0, 0] : Fin 2 → Nat) a + S1024x1024.size a ≤ S1024x1024.size a
  h_S1024x1024 : 0 < S1024x1024.numel
  shapeCasts_S1x1024_S1x1024 : S1x1024.ShapeCasts S1x1024
  reduces_S1024x1024_S1024 : S1024x1024.Reduces [0] S1024
  shapeCasts_S1024_S1x1024 : S1024.ShapeCasts S1x1024
  bcast_S_S1x1024 : S_.BroadcastsInDim S1x1024 (![] : Fin 0 → Fin S1x1024.rank)
  inb_S512x1024_S512x1024_0_0 : ∀ a, (![0, 0] : Fin 2 → Nat) a + S512x1024.size a ≤ S512x1024.size a
  h_S512x1024 : 0 < S512x1024.numel
  broadcasts_S1x1024_S512x1024 : S1x1024.Broadcasts S512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S65536x1024.size a
  hwx1_0 : ∀ i : grid1.Coords, EltTy.bits .f32 = 32 ∨ (Rect.block (s := S65536x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S65536x1024.size a
  hwx1_1 : ∀ i : grid1.Coords, EltTy.bits .f32 = 32 ∨ (Rect.block (s := S65536x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1024.size a ≤ S1x1024.size a
  hwx1_10 : ∀ i : grid1.Coords, EltTy.bits .f32 = 32 ∨ (Rect.block (s := S1x1024) S1x1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1024.size a ≤ S1x1024.size a
  hwx1_11 : ∀ i : grid1.Coords, EltTy.bits .f32 = 32 ∨ (Rect.block (s := S1x1024) S1x1024.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S512x1024.size a ≤ S65536x1024.size a
  hwx1_12 : ∀ i : grid1.Coords, EltTy.bits .f32 = 32 ∨ (Rect.block (s := S65536x1024) S512x1024.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S512x1024.size a ≤ S65536x1024.size a
  hwx1_13 : ∀ i : grid1.Coords, EltTy.bits .f32 = 32 ∨ (Rect.block (s := S65536x1024) S512x1024.size (cc1_transform_13 i) (hinb1_13 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v40) S1x1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v41) S1x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v42_0) S512x1024.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v42_1) S512x1024.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S1024 : Shape := ⟨1, ![1024]⟩
abbrev S_ : Shape := ⟨0, ![]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S65536x1024, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S65536x1024, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1x1024, .f32⟩
  | .hbm, ⟨65, _⟩ => ⟨S65536x1024, .f32⟩
  | .hbm, ⟨66, _⟩ => ⟨S65536x1024, .f32⟩
  | .hbm, ⟨67, _⟩ => ⟨S1x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S1x1024, .f32⟩
  | .hbm, ⟨72, _⟩ => ⟨S65536x1024, .f32⟩
  | .hbm, ⟨73, _⟩ => ⟨S65536x1024, .f32⟩
  | .hbm, ⟨74, _⟩ => ⟨S1x1024, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S1x1024, .f32⟩
  | .hbm, ⟨79, _⟩ => ⟨S65536x1024, .f32⟩
  | .hbm, ⟨80, _⟩ => ⟨S65536x1024, .f32⟩
  | .hbm, ⟨81, _⟩ => ⟨S1x1024, .f32⟩
  | .hbm, ⟨82, _⟩ => ⟨S65536x1024, .f32⟩
  | .hbm, ⟨83, _⟩ => ⟨S65536x1024, .f32⟩
  | .hbm, ⟨84, _⟩ => ⟨S65536x1024, .f32⟩
  | .hbm, ⟨85, _⟩ => ⟨S1x1024, .f32⟩
  | .hbm, ⟨86, _⟩ => ⟨S65536x1024, .f32⟩
  | .hbm, ⟨87, _⟩ => ⟨S65536x1024, .f32⟩
  | .hbm, ⟨88, _⟩ => ⟨S1x1024, .f32⟩
  | .hbm, ⟨89, _⟩ => ⟨S65536x1024, .f32⟩
  | .hbm, ⟨90, _⟩ => ⟨S65536x1024, .f32⟩
  | .hbm, ⟨91, _⟩ => ⟨S1x1024, .f32⟩
  | .hbm, ⟨92, _⟩ => ⟨S65536x1024, .f32⟩
  | .hbm, ⟨93, _⟩ => ⟨S65536x1024, .f32⟩
  | .hbm, ⟨94, _⟩ => ⟨S65536x1024, .f32⟩
  | .hbm, ⟨95, _⟩ => ⟨S1x1024, .f32⟩
  | .hbm, ⟨96, _⟩ => ⟨S65536x1024, .f32⟩
  | .hbm, ⟨97, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_cst_10 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)

variable [Facts₀]

class Facts : Prop extends Facts₀ where

variable [Facts]
-- ==== Proof.Spec.lean ====
/-
  Complex batch normalisation over f32[65536, 1024] read on the extended reals: per feature, the two means, the
  2×2 covariance with an epsilon on its diagonal, the closed-form inverse square root of that matrix, and the
  affine map with a symmetric 2×2 gain and a complex bias.  This module states every quantity as a scalar function
  and proves the one law that joins the two ways of computing the covariance:
      (1/N) Σₙ (xₙ − μ)(yₙ − ν)  =  (1/N) Σₙ xₙ yₙ − μ ν      with μ = (1/N) Σₙ xₙ, ν = (1/N) Σₙ yₙ,
  for finite xₙ, yₙ (on the extended reals the law fails at the infinities, so finiteness is used).
-/
import Idealize.ShloMosaic.PureOps.Ideal
import Idealize.ShloMosaic.PureOps.Ideal.Laws
import Idealize.ShloMosaic.Lib.ValueIdx

noncomputable section

namespace Cert.CBN

open Idealize.ShloMosaic Idealize.ShloMosaic.ValueIdx

/-- The data shape [65536, 1024] and the per-feature shape [1024]. -/
abbrev SN : Shape := ⟨2, ![65536, 1024]⟩
abbrev SF : Shape := ⟨1, ![1024]⟩
abbrev SR : Shape := ⟨2, ![1, 1024]⟩

/-- The three float words both programs spell: 65536.0, the epsilon 9.99999974e-6, and 2.0. -/
abbrev cN : EReal := Ideal.ofBits .f32 0x47800000#32
abbrev cEps : EReal := Ideal.ofBits .f32 0x3727C5AC#32
abbrev cTwo : EReal := Ideal.ofBits .f32 0x40000000#32

/-- 65536.0 denotes the real 65536. -/
theorem cN_eq : cN = ((65536 : ℝ) : EReal) := by
  simp [cN, Ideal.ofBits, Ideal.ieee, -EReal.coe_mul]; norm_num

/-- The sum of column `f` of a [65536, 1024] array, and of the entrywise product of two such arrays. -/
def colSum (Z : SN.Idx → EReal) (f : Fin 1024) : EReal := ∑ n : Fin 65536, Z (ix2 n f)
def colSum2 (X Y : SN.Idx → EReal) (f : Fin 1024) : EReal := ∑ n : Fin 65536, X (ix2 n f) * Y (ix2 n f)

/-- The mean of column `f`. -/
def mean (Z : SN.Idx → EReal) (f : Fin 1024) : EReal := Ideal.div (colSum Z f) cN

/-- Covariance entries from RAW moments: E[xy] − E[x]E[y] (the diagonal ones get the epsilon added by the caller). -/
def covRaw (X Y : SN.Idx → EReal) (f : Fin 1024) : EReal :=
  Ideal.div (colSum2 X Y f) cN - mean X f * mean Y f

/-- Covariance entries from CENTRED data: E[(x − E x)(y − E y)]. -/
def covCen (X Y : SN.Idx → EReal) (f : Fin 1024) : EReal :=
  Ideal.div (∑ n : Fin 65536, (X (ix2 n f) - mean X f) * (Y (ix2 n f) - mean Y f)) cN

/-- From the covariance (crr, cii on the diagonal, cri off it): s = √det, the common denominator s·√(tr + 2s), and
    the three entries of the inverse square root. -/
def sdet (crr cii cri : EReal) : EReal := Ideal.sqrt (crr * cii - cri * cri)
def wden (crr cii cri : EReal) : EReal := sdet crr cii cri * Ideal.sqrt (crr + cii + cTwo * sdet crr cii cri)
def wRR (crr cii cri : EReal) : EReal := Ideal.div (cii + sdet crr cii cri) (wden crr cii cri)
def wII (crr cii cri : EReal) : EReal := Ideal.div (crr + sdet crr cii cri) (wden crr cii cri)
def wRI (crr cii cri : EReal) : EReal := Ideal.div (-cri) (wden crr cii cri)

/-- One element's two outputs from its centred-and-whitened pair: the whitening by (wrr, wri; wri, wii) of
    (x − μr, y − μi), then the gain (grr, gri; gri, gii) and the bias. -/
def affR (x y μr μi wrr wri wii grr gri br : EReal) : EReal :=
  grr * (wrr * (x - μr) + wri * (y - μi)) + gri * (wri * (x - μr) + wii * (y - μi)) + br
def affI (x y μr μi wrr wri wii gri gii bi : EReal) : EReal :=
  gri * (wrr * (x - μr) + wri * (y - μi)) + gii * (wri * (x - μr) + wii * (y - μi)) + bi

/-- The whole map for the real output, parametrised by which covariance is used. -/
def outR (cov : (SN.Idx → EReal) → (SN.Idx → EReal) → Fin 1024 → EReal)
    (X Y : SN.Idx → EReal) (grr gri br : SF.Idx → EReal) : SN.Idx → EReal := fun i =>
  let f := i 1
  let crr := cov X X f + cEps
  let cii := cov Y Y f + cEps
  let cri := cov X Y f
  affR (X i) (Y i) (mean X f) (mean Y f) (wRR crr cii cri) (wRI crr cii cri) (wII crr cii cri)
    (grr (ix1 f)) (gri (ix1 f)) (br (ix1 f))

/-- The whole map for the imaginary output. -/
def outI (cov : (SN.Idx → EReal) → (SN.Idx → EReal) → Fin 1024 → EReal)
    (X Y : SN.Idx → EReal) (gri gii bi : SF.Idx → EReal) : SN.Idx → EReal := fun i =>
  let f := i 1
  let crr := cov X X f + cEps
  let cii := cov Y Y f + cEps
  let cri := cov X Y f
  affI (X i) (Y i) (mean X f) (mean Y f) (wRR crr cii cri) (wRI crr cii cri) (wII crr cii cri)
    (gri (ix1 f)) (gii (ix1 f)) (bi (ix1 f))

/-! ## The moments identity -/

/-- A finite sum of coerced reals is the coerced sum. -/
theorem coe_sum {ι : Type*} (s : Finset ι) (g : ι → ℝ) : (∑ n ∈ s, (g n : EReal)) = ((∑ n ∈ s, g n : ℝ) : EReal) := by
  classical
  induction s using Finset.induction_on with
  | empty => simp
  | insert a s ha ih => rw [Finset.sum_insert ha, Finset.sum_insert ha, ih, EReal.coe_add]

/-- The law over the reals, for any nonempty count N: centred second moment = raw second moment − product of means. -/
theorem cov_real {ι : Type*} [Fintype ι] (N : ℝ) (hN : N ≠ 0) (hc : (Fintype.card ι : ℝ) = N) (x y : ι → ℝ) :
    (∑ n, (x n - (∑ k, x k) * (1 / N)) * (y n - (∑ k, y k) * (1 / N))) * (1 / N)
      = (∑ n, x n * y n) * (1 / N) - ((∑ k, x k) * (1 / N)) * ((∑ k, y k) * (1 / N)) := by
  have hNN : N * (1 / N) = 1 := by field_simp
  have h1 : ∑ n, (x n - (∑ k, x k) * (1 / N)) * (y n - (∑ k, y k) * (1 / N))
      = (∑ n, x n * y n) - ((∑ k, y k) * (1 / N)) * (∑ k, x k) - ((∑ k, x k) * (1 / N)) * (∑ k, y k)
        + N * (((∑ k, x k) * (1 / N)) * ((∑ k, y k) * (1 / N))) := by
    have : ∀ n, (x n - (∑ k, x k) * (1 / N)) * (y n - (∑ k, y k) * (1 / N))
        = x n * y n - ((∑ k, y k) * (1 / N)) * x n - ((∑ k, x k) * (1 / N)) * y n
          + ((∑ k, x k) * (1 / N)) * ((∑ k, y k) * (1 / N)) := fun n => by ring
    simp only [this, Finset.sum_add_distrib, Finset.sum_sub_distrib, ← Finset.mul_sum, Finset.sum_const, Finset.card_univ,
      nsmul_eq_mul, hc]
    ring
  rw [h1]
  have e : ∀ a b c : ℝ, (c - b * (1 / N) * a - a * (1 / N) * b + N * (a * (1 / N) * (b * (1 / N)))) * (1 / N)
      = c * (1 / N) - a * (1 / N) * (b * (1 / N)) := fun a b c => by
    have : N * (a * (1 / N) * (b * (1 / N))) = (N * (1 / N)) * (a * (b * (1 / N))) := by ring
    rw [this, hNN]; ring
  exact e _ _ _

/-- The law on the extended reals, for finite columns. -/
theorem covCen_eq_covRaw (X Y : SN.Idx → EReal) (f : Fin 1024)
    (hX : ∀ i, ∃ r : ℝ, X i = (r : EReal)) (hY : ∀ i, ∃ r : ℝ, Y i = (r : EReal)) :
    covCen X Y f = covRaw X Y f := by
  choose x hx using hX
  choose y hy using hY
  have hN : (65536 : ℝ) ≠ 0 := by norm_num
  unfold covCen covRaw mean colSum colSum2
  simp only [hx, hy, cN_eq, Ideal.div_coe hN, coe_sum, ← EReal.coe_mul, ← EReal.coe_sub]
  refine congrArg _ ?_
  exact cov_real (ι := Fin 65536) 65536 hN (by simp) (fun n => x (ix2 n f)) (fun n => y (ix2 n f))

/-- So with finite data the two whole maps agree. -/
theorem outR_cen_eq_raw (X Y : SN.Idx → EReal) (grr gri br : SF.Idx → EReal)
    (hX : ∀ i, ∃ r : ℝ, X i = (r : EReal)) (hY : ∀ i, ∃ r : ℝ, Y i = (r : EReal)) :
    outR covCen X Y grr gri br = outR covRaw X Y grr gri br := by
  funext i
  unfold outR
  dsimp only
  rw [covCen_eq_covRaw X X (i 1) hX hX, covCen_eq_covRaw Y Y (i 1) hY hY, covCen_eq_covRaw X Y (i 1) hX hY]

theorem outI_cen_eq_raw (X Y : SN.Idx → EReal) (gri gii bi : SF.Idx → EReal)
    (hX : ∀ i, ∃ r : ℝ, X i = (r : EReal)) (hY : ∀ i, ∃ r : ℝ, Y i = (r : EReal)) :
    outI covCen X Y gri gii bi = outI covRaw X Y gri gii bi := by
  funext i
  unfold outI
  dsimp only
  rw [covCen_eq_covRaw X X (i 1) hX hX, covCen_eq_covRaw Y Y (i 1) hY hY, covCen_eq_covRaw X Y (i 1) hX hY]

end Cert.CBN

end
-- ==== Proof.Region0.lean ====
import proofs.«137192_j23862838297129_1_alg».proof.Proof.Gen.KernelIdeal.Frame
import proofs.«137192_j23862838297129_1_alg».proof.Proof.Spec
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen Cert.CBN

-- The buffer contents when the statistics region is entered: any.
variable (V : (c : Dev nD) → (b : Ref sig .tc) → Buf (Elt Ideal) ((c : Thread nD τ).loc b))

section Pieces
variable {F : FTy → Type} [FloatOps F]

/-- The zero offsets of a whole-buffer access, as the constant function. -/
theorem hz : (![0, 0] : Fin 2 → Nat) = fun _ => 0 := funext fun a => by fin_cases a <;> rfl

/-- Away from the first point the body leaves in accumulator 2 its one store's value: the running contents updated by this point's blocks. -/
theorem outB2 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : ¬cond0_0 i)
    (x0 x1 : Vec F S1024x1024 .f32) (xo2 xo3 xo4 xo5 xo6 : Vec F S1x1024 .f32) :
    out0_B_2 c i a1 h1 a2 h2 a3 h3 a4 h4 a5 h5 a6 h6 a7 h7 hc x0 x1 xo2 xo3 xo4 xo5 xo6 = k0_pay7 x0 xo2 := by
  unfold out0_B_2
  rw [View.read_writes_eq_canon _ _ _ (cover0_B_2 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h3.read_unread, View.ld_unit_zero (S := S1024x1024) hz, View.ld_unit_zero (S := S1x1024) hz]

/-- At the first point the body first stores the zero block into accumulator 2, reads it back and updates it: the later store covers. -/
theorem outA2 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : cond0_0 i)
    (x0 x1 : Vec F S1024x1024 .f32) :
    out0_A_2 c i a1 h1 a2 h2 a3 h3 a4 h4 a5 h5 a6 h6 a7 h7 hc x0 x1 = k0_pay7 x0 k0_pay2 := by
  unfold out0_A_2
  rw [View.read_writes_eq_canon _ _ _ (cover0_A_2 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S1024x1024) hz]

/-- Away from the first point the body leaves in accumulator 3 its one store's value: the running contents updated by this point's blocks. -/
theorem outB3 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : ¬cond0_0 i)
    (x0 x1 : Vec F S1024x1024 .f32) (xo2 xo3 xo4 xo5 xo6 : Vec F S1x1024 .f32) :
    out0_B_3 c i a1 h1 a2 h2 a3 h3 a4 h4 a5 h5 a6 h6 a7 h7 hc x0 x1 xo2 xo3 xo4 xo5 xo6 = k0_pay8 x1 xo3 := by
  unfold out0_B_3
  rw [View.read_writes_eq_canon _ _ _ (cover0_B_3 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h4.read_unread, View.ld_unit_zero (S := S1024x1024) hz, View.ld_unit_zero (S := S1x1024) hz]

/-- At the first point the body first stores the zero block into accumulator 3, reads it back and updates it: the later store covers. -/
theorem outA3 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : cond0_0 i)
    (x0 x1 : Vec F S1024x1024 .f32) :
    out0_A_3 c i a1 h1 a2 h2 a3 h3 a4 h4 a5 h5 a6 h6 a7 h7 hc x0 x1 = k0_pay8 x1 k0_pay3 := by
  unfold out0_A_3
  rw [View.read_writes_eq_canon _ _ _ (cover0_A_3 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S1024x1024) hz]

/-- Away from the first point the body leaves in accumulator 4 its one store's value: the running contents updated by this point's blocks. -/
theorem outB4 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : ¬cond0_0 i)
    (x0 x1 : Vec F S1024x1024 .f32) (xo2 xo3 xo4 xo5 xo6 : Vec F S1x1024 .f32) :
    out0_B_4 c i a1 h1 a2 h2 a3 h3 a4 h4 a5 h5 a6 h6 a7 h7 hc x0 x1 xo2 xo3 xo4 xo5 xo6 = k0_pay9 x0 xo4 := by
  unfold out0_B_4
  rw [View.read_writes_eq_canon _ _ _ (cover0_B_4 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h5.read_unread, View.ld_unit_zero (S := S1024x1024) hz, View.ld_unit_zero (S := S1x1024) hz]

/-- At the first point the body first stores the zero block into accumulator 4, reads it back and updates it: the later store covers. -/
theorem outA4 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : cond0_0 i)
    (x0 x1 : Vec F S1024x1024 .f32) :
    out0_A_4 c i a1 h1 a2 h2 a3 h3 a4 h4 a5 h5 a6 h6 a7 h7 hc x0 x1 = k0_pay9 x0 k0_pay4 := by
  unfold out0_A_4
  rw [View.read_writes_eq_canon _ _ _ (cover0_A_4 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S1024x1024) hz]

/-- Away from the first point the body leaves in accumulator 5 its one store's value: the running contents updated by this point's blocks. -/
theorem outB5 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : ¬cond0_0 i)
    (x0 x1 : Vec F S1024x1024 .f32) (xo2 xo3 xo4 xo5 xo6 : Vec F S1x1024 .f32) :
    out0_B_5 c i a1 h1 a2 h2 a3 h3 a4 h4 a5 h5 a6 h6 a7 h7 hc x0 x1 xo2 xo3 xo4 xo5 xo6 = k0_pay10 x1 xo5 := by
  unfold out0_B_5
  rw [View.read_writes_eq_canon _ _ _ (cover0_B_5 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h6.read_unread, View.ld_unit_zero (S := S1024x1024) hz, View.ld_unit_zero (S := S1x1024) hz]

/-- At the first point the body first stores the zero block into accumulator 5, reads it back and updates it: the later store covers. -/
theorem outA5 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : cond0_0 i)
    (x0 x1 : Vec F S1024x1024 .f32) :
    out0_A_5 c i a1 h1 a2 h2 a3 h3 a4 h4 a5 h5 a6 h6 a7 h7 hc x0 x1 = k0_pay10 x1 k0_pay5 := by
  unfold out0_A_5
  rw [View.read_writes_eq_canon _ _ _ (cover0_A_5 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S1024x1024) hz]

/-- Away from the first point the body leaves in accumulator 6 its one store's value: the running contents updated by this point's blocks. -/
theorem outB6 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : ¬cond0_0 i)
    (x0 x1 : Vec F S1024x1024 .f32) (xo2 xo3 xo4 xo5 xo6 : Vec F S1x1024 .f32) :
    out0_B_6 c i a1 h1 a2 h2 a3 h3 a4 h4 a5 h5 a6 h6 a7 h7 hc x0 x1 xo2 xo3 xo4 xo5 xo6 = k0_pay1 x0 x1 xo6 := by
  unfold out0_B_6
  rw [View.read_writes_eq_canon _ _ _ (cover0_B_6 c i a1 h1 a2 h2 a3 h3 a4 h4 a5 h5 a6 h6 a7 h7 hc x0 x1 xo2 xo3 xo4 xo5 xo6)]
  unfold kernelRun0_B
  dsimp only
  sl_unfold_words
  rw [View.canon_unit_zero hz]
  simp only [View.readAt_eq_ld, h1.read_unread, h2.read_unread, h7.read_unread, View.ld_unit_zero (S := S1024x1024) hz, View.ld_unit_zero (S := S1x1024) hz]

/-- At the first point the body first stores the zero block into accumulator 6, reads it back and updates it: the later store covers. -/
theorem outA6 (c : Dev nD) (i : grid0.Coords) (a1 : Memref sig .tc .vmem S1024x1024 .f32) (h1 : a1.IsWhole) (a2 : Memref sig .tc .vmem S1024x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (hc : cond0_0 i)
    (x0 x1 : Vec F S1024x1024 .f32) :
    out0_A_6 c i a1 h1 a2 h2 a3 h3 a4 h4 a5 h5 a6 h6 a7 h7 hc x0 x1 = k0_pay1 x0 x1 k0_pay6 := by
  unfold out0_A_6
  rw [View.read_writes_eq_canon _ _ _ (cover0_A_6 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S1024x1024) hz]

end Pieces

section Payloads

/-- The lane sum of a [1024, 1024] block over its rows, stored as a [1, 1024] row: at (0, f) the sum of column f. -/
theorem colsum_apply (v : S1024x1024.Idx → EReal) (f : Fin 1024) :
    shapeCast S1x1024 (multiReduction (F := Ideal) .add [0] S1024 v 0x00000000#32 reduces_S1024x1024_S1024 (.inl rfl) rfl)
      shapeCasts_S1024_S1x1024 (ix2 0 f) = ∑ r : Fin 1024, v (ix2 r f) := by
  refine (shapeCast_addUnit_apply ![1024] _ _ (ix2 0 f)).trans ?_
  refine (Ideal.multiReduction_add_single v _ reduces_S1024x1024_S1024 (.inl rfl) rfl _).trans ?_
  refine Finset.sum_congr rfl fun r _ => congrArg v ?_
  funext a
  match a with
  | ⟨0, _⟩ => rfl
  | ⟨1, _⟩ => rfl

/-- The five updates at an index of the accumulator row: the old entry plus the column sum of the block (or of a product of blocks). -/
theorem pay7_apply (x : S1024x1024.Idx → EReal) (acc : S1x1024.Idx → EReal) (f : Fin 1024) :
    k0_pay7 (F := Ideal) x acc (ix2 0 f) = acc (ix2 0 f) + ∑ r : Fin 1024, x (ix2 r f) :=
  congrArg₂ (· + ·) (congrFun (shapeCast_self acc _) (ix2 0 f)) (colsum_apply x f)
theorem pay8_apply (y : S1024x1024.Idx → EReal) (acc : S1x1024.Idx → EReal) (f : Fin 1024) :
    k0_pay8 (F := Ideal) y acc (ix2 0 f) = acc (ix2 0 f) + ∑ r : Fin 1024, y (ix2 r f) :=
  congrArg₂ (· + ·) (congrFun (shapeCast_self acc _) (ix2 0 f)) (colsum_apply y f)
theorem pay9_apply (x : S1024x1024.Idx → EReal) (acc : S1x1024.Idx → EReal) (f : Fin 1024) :
    k0_pay9 (F := Ideal) x acc (ix2 0 f) = acc (ix2 0 f) + ∑ r : Fin 1024, x (ix2 r f) * x (ix2 r f) :=
  congrArg₂ (· + ·) (congrFun (shapeCast_self acc _) (ix2 0 f)) (colsum_apply (fun j => x j * x j) f)
theorem pay10_apply (y : S1024x1024.Idx → EReal) (acc : S1x1024.Idx → EReal) (f : Fin 1024) :
    k0_pay10 (F := Ideal) y acc (ix2 0 f) = acc (ix2 0 f) + ∑ r : Fin 1024, y (ix2 r f) * y (ix2 r f) :=
  congrArg₂ (· + ·) (congrFun (shapeCast_self acc _) (ix2 0 f)) (colsum_apply (fun j => y j * y j) f)
theorem pay1_apply (x y : S1024x1024.Idx → EReal) (acc : S1x1024.Idx → EReal) (f : Fin 1024) :
    k0_pay1 (F := Ideal) x y acc (ix2 0 f) = acc (ix2 0 f) + ∑ r : Fin 1024, x (ix2 r f) * y (ix2 r f) :=
  congrArg₂ (· + ·) (congrFun (shapeCast_self acc _) (ix2 0 f)) (colsum_apply (fun j => x j * y j) f)

/-- The block the first point stores before accumulating is zero everywhere. -/
theorem pay2_apply (j : S1x1024.Idx) : k0_pay2 (F := Ideal) j = 0 := Ideal.ofBits_zero_f32
theorem pay3_apply (j : S1x1024.Idx) : k0_pay3 (F := Ideal) j = 0 := Ideal.ofBits_zero_f32
theorem pay4_apply (j : S1x1024.Idx) : k0_pay4 (F := Ideal) j = 0 := Ideal.ofBits_zero_f32
theorem pay5_apply (j : S1x1024.Idx) : k0_pay5 (F := Ideal) j = 0 := Ideal.ofBits_zero_f32
theorem pay6_apply (j : S1x1024.Idx) : k0_pay6 (F := Ideal) j = 0 := Ideal.ofBits_zero_f32
end Payloads

section Rows

/-- Row `1024·s + r` of the data — reduced modulo 65536, so that the term makes sense for every `s`; for the
    64 blocks the reduction changes nothing. -/
def rowOf (s : ℕ) (r : Fin 1024) : Fin 65536 := ⟨(1024 * s + r.val) % 65536, Nat.mod_lt _ (by norm_num)⟩

/-- Sixty-four blocks of 1024 rows are the 65536 rows: a sum over the rows, block by block. -/
theorem sum_blocks (g : Fin 65536 → EReal) :
    ∑ s ∈ Finset.range 64, ∑ r : Fin 1024, g (rowOf s r) = ∑ n : Fin 65536, g n := by
  rw [Finset.sum_range, ← Fintype.sum_prod_type']
  refine Fintype.sum_equiv (finProdFinEquiv : Fin 64 × Fin 1024 ≃ Fin 65536) _ _ fun p => congrArg g (Fin.ext ?_)
  have h1 := p.1.isLt
  have h2 := p.2.isLt
  show (1024 * p.1.val + p.2.val) % 65536 = p.2.val + 1024 * p.1.val
  omega

/-- A running value that starts at the first block's column sum and gains each later block's is, after point `n`,
    the sum over the blocks `0 … n`. -/
theorem acc_blocks (Z : SN.Idx → EReal) (f : Fin 1024) (N : ℕ) (a : (n : ℕ) → n < N → EReal)
    (h0 : ∀ h : 0 < N, a 0 h = ∑ r : Fin 1024, Z (ix2 (rowOf 0 r) f))
    (hs : ∀ (n : ℕ) (h : n + 1 < N), a (n + 1) h = a n (Nat.lt_of_succ_lt h) + ∑ r : Fin 1024, Z (ix2 (rowOf (n + 1) r) f)) :
    ∀ (n : ℕ) (h : n < N), a n h = ∑ s ∈ Finset.range (n + 1), ∑ r : Fin 1024, Z (ix2 (rowOf s r) f)
  | 0, h => by rw [h0 h, Finset.sum_range_one]
  | n + 1, h => by rw [hs n h, acc_blocks Z f N a h0 hs n (Nat.lt_of_succ_lt h), Finset.sum_range_succ _ (n + 1)]

/-- So after the last of 64 points it is the column sum over all rows. -/
theorem acc_total (Z : SN.Idx → EReal) (f : Fin 1024) (N : ℕ) (a : (n : ℕ) → n < N → EReal)
    (h0 : ∀ h : 0 < N, a 0 h = ∑ r : Fin 1024, Z (ix2 (rowOf 0 r) f))
    (hs : ∀ (n : ℕ) (h : n + 1 < N), a (n + 1) h = a n (Nat.lt_of_succ_lt h) + ∑ r : Fin 1024, Z (ix2 (rowOf (n + 1) r) f))
    (h : 63 < N) : a 63 h = colSum Z f := by
  rw [acc_blocks Z f N a h0 hs 63 h]
  exact sum_blocks fun n => Z (ix2 n f)

end Rows

section Blocks

/-- The two data blocks at a point, and the two data arrays, at their literal types. -/
abbrev xblk (c : Dev nD) (t : Fin cfg0.N) : S1024x1024.Idx → EReal := iblk0 V c 0 t
abbrev yblk (c : Dev nD) (t : Fin cfg0.N) : S1024x1024.Idx → EReal := iblk0 V c 1 t
abbrev xarr (c : Dev nD) : SN.Idx → EReal := V c main_arg0
abbrev yarr (c : Dev nD) : SN.Idx → EReal := V c main_arg1

/-- The data windows' block index at point `t` is `(t, 0)`. -/
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel

/-- Entry `(r, f)` of the block at point `t` is entry `(1024·t + r, f)` of the array. -/
theorem xblk_apply (c : Dev nD) (t : Fin cfg0.N) (r f : Fin 1024) :
    xblk V c t (ix2 r f) = xarr V c (ix2 (rowOf t.val r) f) := by
  have hi := idx0 t
  have hN : t.val < 64 := lt_of_lt_of_eq t.isLt N_0
  show iblk0 V c 0 t (ix2 r f) = _
  unfold iblk0
  rw [View.read_apply]
  show V c main_arg0 _ = V c main_arg0 _
  congr 1
  funext a
  apply Fin.ext
  match a with
  | ⟨0, _⟩ => show win0_0.index t 0 * 1024 + 1 * r.val = (1024 * t.val + r.val) % 65536; rw [hi.1]; omega
  | ⟨1, _⟩ => show win0_0.index t 1 * 1024 + 1 * f.val = f.val; rw [hi.2]; omega
theorem yblk_apply (c : Dev nD) (t : Fin cfg0.N) (r f : Fin 1024) :
    yblk V c t (ix2 r f) = yarr V c (ix2 (rowOf t.val r) f) := by
  have hi := idx1 t
  have hN : t.val < 64 := lt_of_lt_of_eq t.isLt N_0
  show iblk0 V c 1 t (ix2 r f) = _
  unfold iblk0
  rw [View.read_apply]
  show V c main_arg1 _ = V c main_arg1 _
  congr 1
  funext a
  apply Fin.ext
  match a with
  | ⟨0, _⟩ => show win0_1.index t 0 * 1024 + 1 * r.val = (1024 * t.val + r.val) % 65536; rw [hi.1]; omega
  | ⟨1, _⟩ => show win0_1.index t 1 * 1024 + 1 * f.val = f.val; rw [hi.2]; omega
end Blocks

section Accumulation

/-- What the five accumulators hold after the point before `t`. -/
abbrev prev (c : Dev nD) (t : Fin cfg0.N) :
    Vec Ideal S1x1024 .f32 × Vec Ideal S1x1024 .f32 × Vec Ideal S1x1024 .f32 × Vec Ideal S1x1024 .f32 × Vec Ideal S1x1024 .f32 :=
  outsAt0 V c (t.val - 1) (Nat.lt_of_le_of_lt (Nat.sub_le _ _) t.isLt)

/-- Accumulator 2 (the column sums of x) after the first point: the column sums of the first block. -/
theorem accA2 (c : Dev nD) (t : Fin cfg0.N) (h0 : t.val % 64 = 0) (f : Fin 1024) :
    (outsAt0 V c t.val t.isLt).1 (ix2 0 f) = ∑ r : Fin 1024, xarr V c (ix2 (rowOf t.val r) f) := by
  rw [outsAt0_A V c t h0]
  dsimp only
  refine (congrFun (outA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t)) (ix2 0 f)).trans ?_
  refine (pay7_apply (xblk V c t) _ f).trans ?_
  rw [pay2_apply, zero_add]
  exact Finset.sum_congr rfl fun r _ => xblk_apply V c t r f

/-- Accumulator 2 after a later point: what the point before left plus the column sums of this point's block. -/
theorem accB2 (c : Dev nD) (t : Fin cfg0.N) (h0 : ¬t.val % 64 = 0) (f : Fin 1024) :
    (outsAt0 V c t.val t.isLt).1 (ix2 0 f)
      = (prev V c t).1 (ix2 0 f) + ∑ r : Fin 1024, xarr V c (ix2 (rowOf t.val r) f) := by
  rw [outsAt0_B V c t h0]
  dsimp only
  refine (congrFun (outB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t)
    (prev V c t).1 (prev V c t).2.1 (prev V c t).2.2.1 (prev V c t).2.2.2.1 (prev V c t).2.2.2.2) (ix2 0 f)).trans ?_
  refine (pay7_apply (xblk V c t) (prev V c t).1 f).trans ?_
  exact congrArg ((prev V c t).1 (ix2 0 f) + ·) (Finset.sum_congr rfl fun r _ => xblk_apply V c t r f)

/-- So after the last point accumulator 2 holds the column sums over all 65536 rows. -/
theorem total2 (c : Dev nD) (f : Fin 1024) (h : 63 < cfg0.N) :
    (outsAt0 V c 63 h).1 (ix2 0 f) = colSum (xarr V c) f :=
  acc_total (xarr V c) f cfg0.N (fun n hn => (outsAt0 V c n hn).1 (ix2 0 f))
    (fun h => accA2 V c ⟨0, h⟩ (Nat.zero_mod 64) f)
    (fun n hn => accB2 V c ⟨n + 1, hn⟩ (by have hN : cfg0.N = 64 := N_0; show ¬(n + 1) % 64 = 0; omega) f) h

/-- Accumulator 3 (the column sums of y) after the first point: the column sums of the first block. -/
theorem accA3 (c : Dev nD) (t : Fin cfg0.N) (h0 : t.val % 64 = 0) (f : Fin 1024) :
    (outsAt0 V c t.val t.isLt).2.1 (ix2 0 f) = ∑ r : Fin 1024, yarr V c (ix2 (rowOf t.val r) f) := by
  rw [outsAt0_A V c t h0]
  dsimp only
  refine (congrFun (outA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t)) (ix2 0 f)).trans ?_
  refine (pay8_apply (yblk V c t) _ f).trans ?_
  rw [pay3_apply, zero_add]
  exact Finset.sum_congr rfl fun r _ => yblk_apply V c t r f

/-- Accumulator 3 after a later point: what the point before left plus the column sums of this point's block. -/
theorem accB3 (c : Dev nD) (t : Fin cfg0.N) (h0 : ¬t.val % 64 = 0) (f : Fin 1024) :
    (outsAt0 V c t.val t.isLt).2.1 (ix2 0 f)
      = (prev V c t).2.1 (ix2 0 f) + ∑ r : Fin 1024, yarr V c (ix2 (rowOf t.val r) f) := by
  rw [outsAt0_B V c t h0]
  dsimp only
  refine (congrFun (outB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t)
    (prev V c t).1 (prev V c t).2.1 (prev V c t).2.2.1 (prev V c t).2.2.2.1 (prev V c t).2.2.2.2) (ix2 0 f)).trans ?_
  refine (pay8_apply (yblk V c t) (prev V c t).2.1 f).trans ?_
  exact congrArg ((prev V c t).2.1 (ix2 0 f) + ·) (Finset.sum_congr rfl fun r _ => yblk_apply V c t r f)

/-- So after the last point accumulator 3 holds the column sums over all 65536 rows. -/
theorem total3 (c : Dev nD) (f : Fin 1024) (h : 63 < cfg0.N) :
    (outsAt0 V c 63 h).2.1 (ix2 0 f) = colSum (yarr V c) f :=
  acc_total (yarr V c) f cfg0.N (fun n hn => (outsAt0 V c n hn).2.1 (ix2 0 f))
    (fun h => accA3 V c ⟨0, h⟩ (Nat.zero_mod 64) f)
    (fun n hn => accB3 V c ⟨n + 1, hn⟩ (by have hN : cfg0.N = 64 := N_0; show ¬(n + 1) % 64 = 0; omega) f) h

/-- Accumulator 4 (the column sums of x·x) after the first point: the column sums of the first block. -/
theorem accA4 (c : Dev nD) (t : Fin cfg0.N) (h0 : t.val % 64 = 0) (f : Fin 1024) :
    (outsAt0 V c t.val t.isLt).2.2.1 (ix2 0 f) = ∑ r : Fin 1024, xarr V c (ix2 (rowOf t.val r) f) * xarr V c (ix2 (rowOf t.val r) f) := by
  rw [outsAt0_A V c t h0]
  dsimp only
  refine (congrFun (outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t)) (ix2 0 f)).trans ?_
  refine (pay9_apply (xblk V c t) _ f).trans ?_
  rw [pay4_apply, zero_add]
  exact Finset.sum_congr rfl fun r _ => congrArg₂ (· * ·) (xblk_apply V c t r f) (xblk_apply V c t r f)

/-- Accumulator 4 after a later point: what the point before left plus the column sums of this point's block. -/
theorem accB4 (c : Dev nD) (t : Fin cfg0.N) (h0 : ¬t.val % 64 = 0) (f : Fin 1024) :
    (outsAt0 V c t.val t.isLt).2.2.1 (ix2 0 f)
      = (prev V c t).2.2.1 (ix2 0 f) + ∑ r : Fin 1024, xarr V c (ix2 (rowOf t.val r) f) * xarr V c (ix2 (rowOf t.val r) f) := by
  rw [outsAt0_B V c t h0]
  dsimp only
  refine (congrFun (outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t)
    (prev V c t).1 (prev V c t).2.1 (prev V c t).2.2.1 (prev V c t).2.2.2.1 (prev V c t).2.2.2.2) (ix2 0 f)).trans ?_
  refine (pay9_apply (xblk V c t) (prev V c t).2.2.1 f).trans ?_
  exact congrArg ((prev V c t).2.2.1 (ix2 0 f) + ·) (Finset.sum_congr rfl fun r _ => congrArg₂ (· * ·) (xblk_apply V c t r f) (xblk_apply V c t r f))

/-- So after the last point accumulator 4 holds the column sums over all 65536 rows. -/
theorem total4 (c : Dev nD) (f : Fin 1024) (h : 63 < cfg0.N) :
    (outsAt0 V c 63 h).2.2.1 (ix2 0 f) = colSum (fun i => xarr V c i * xarr V c i) f :=
  acc_total (fun i => xarr V c i * xarr V c i) f cfg0.N (fun n hn => (outsAt0 V c n hn).2.2.1 (ix2 0 f))
    (fun h => accA4 V c ⟨0, h⟩ (Nat.zero_mod 64) f)
    (fun n hn => accB4 V c ⟨n + 1, hn⟩ (by have hN : cfg0.N = 64 := N_0; show ¬(n + 1) % 64 = 0; omega) f) h

/-- Accumulator 5 (the column sums of y·y) after the first point: the column sums of the first block. -/
theorem accA5 (c : Dev nD) (t : Fin cfg0.N) (h0 : t.val % 64 = 0) (f : Fin 1024) :
    (outsAt0 V c t.val t.isLt).2.2.2.1 (ix2 0 f) = ∑ r : Fin 1024, yarr V c (ix2 (rowOf t.val r) f) * yarr V c (ix2 (rowOf t.val r) f) := by
  rw [outsAt0_A V c t h0]
  dsimp only
  refine (congrFun (outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t)) (ix2 0 f)).trans ?_
  refine (pay10_apply (yblk V c t) _ f).trans ?_
  rw [pay5_apply, zero_add]
  exact Finset.sum_congr rfl fun r _ => congrArg₂ (· * ·) (yblk_apply V c t r f) (yblk_apply V c t r f)

/-- Accumulator 5 after a later point: what the point before left plus the column sums of this point's block. -/
theorem accB5 (c : Dev nD) (t : Fin cfg0.N) (h0 : ¬t.val % 64 = 0) (f : Fin 1024) :
    (outsAt0 V c t.val t.isLt).2.2.2.1 (ix2 0 f)
      = (prev V c t).2.2.2.1 (ix2 0 f) + ∑ r : Fin 1024, yarr V c (ix2 (rowOf t.val r) f) * yarr V c (ix2 (rowOf t.val r) f) := by
  rw [outsAt0_B V c t h0]
  dsimp only
  refine (congrFun (outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t)
    (prev V c t).1 (prev V c t).2.1 (prev V c t).2.2.1 (prev V c t).2.2.2.1 (prev V c t).2.2.2.2) (ix2 0 f)).trans ?_
  refine (pay10_apply (yblk V c t) (prev V c t).2.2.2.1 f).trans ?_
  exact congrArg ((prev V c t).2.2.2.1 (ix2 0 f) + ·) (Finset.sum_congr rfl fun r _ => congrArg₂ (· * ·) (yblk_apply V c t r f) (yblk_apply V c t r f))

/-- So after the last point accumulator 5 holds the column sums over all 65536 rows. -/
theorem total5 (c : Dev nD) (f : Fin 1024) (h : 63 < cfg0.N) :
    (outsAt0 V c 63 h).2.2.2.1 (ix2 0 f) = colSum (fun i => yarr V c i * yarr V c i) f :=
  acc_total (fun i => yarr V c i * yarr V c i) f cfg0.N (fun n hn => (outsAt0 V c n hn).2.2.2.1 (ix2 0 f))
    (fun h => accA5 V c ⟨0, h⟩ (Nat.zero_mod 64) f)
    (fun n hn => accB5 V c ⟨n + 1, hn⟩ (by have hN : cfg0.N = 64 := N_0; show ¬(n + 1) % 64 = 0; omega) f) h

/-- Accumulator 6 (the column sums of x·y) after the first point: the column sums of the first block. -/
theorem accA6 (c : Dev nD) (t : Fin cfg0.N) (h0 : t.val % 64 = 0) (f : Fin 1024) :
    (outsAt0 V c t.val t.isLt).2.2.2.2 (ix2 0 f) = ∑ r : Fin 1024, xarr V c (ix2 (rowOf t.val r) f) * yarr V c (ix2 (rowOf t.val r) f) := by
  rw [outsAt0_A V c t h0]
  dsimp only
  refine (congrFun (outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (yblk V c t)) (ix2 0 f)).trans ?_
  refine (pay1_apply (xblk V c t) (yblk V c t) _ f).trans ?_
  rw [pay6_apply, zero_add]
  exact Finset.sum_congr rfl fun r _ => congrArg₂ (· * ·) (xblk_apply V c t r f) (yblk_apply V c t r f)

/-- Accumulator 6 after a later point: what the point before left plus the column sums of this point's block. -/
theorem accB6 (c : Dev nD) (t : Fin cfg0.N) (h0 : ¬t.val % 64 = 0) (f : Fin 1024) :
    (outsAt0 V c t.val t.isLt).2.2.2.2 (ix2 0 f)
      = (prev V c t).2.2.2.2 (ix2 0 f) + ∑ r : Fin 1024, xarr V c (ix2 (rowOf t.val r) f) * yarr V c (ix2 (rowOf t.val r) f) := by
  rw [outsAt0_B V c t h0]
  dsimp only
  refine (congrFun (outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (yblk V c t)
    (prev V c t).1 (prev V c t).2.1 (prev V c t).2.2.1 (prev V c t).2.2.2.1 (prev V c t).2.2.2.2) (ix2 0 f)).trans ?_
  refine (pay1_apply (xblk V c t) (yblk V c t) (prev V c t).2.2.2.2 f).trans ?_
  exact congrArg ((prev V c t).2.2.2.2 (ix2 0 f) + ·) (Finset.sum_congr rfl fun r _ => congrArg₂ (· * ·) (xblk_apply V c t r f) (yblk_apply V c t r f))

/-- So after the last point accumulator 6 holds the column sums over all 65536 rows. -/
theorem total6 (c : Dev nD) (f : Fin 1024) (h : 63 < cfg0.N) :
    (outsAt0 V c 63 h).2.2.2.2 (ix2 0 f) = colSum (fun i => xarr V c i * yarr V c i) f :=
  acc_total (fun i => xarr V c i * yarr V c i) f cfg0.N (fun n hn => (outsAt0 V c n hn).2.2.2.2 (ix2 0 f))
    (fun h => accA6 V c ⟨0, h⟩ (Nat.zero_mod 64) f)
    (fun n hn => accB6 V c ⟨n + 1, hn⟩ (by have hN : cfg0.N = 64 := N_0; show ¬(n + 1) % 64 = 0; omega) f) h

end Accumulation

section Final

/-- The last point of the grid, the only one after which the accumulators are written back. -/
abbrev tL : Fin cfg0.N := ⟨63, by rw [show cfg0.N = 64 from N_0]; decide⟩

/-- What result array 2 ends holding: at (0, f) the column sum of x over all rows. -/
abbrev res2 (c : Dev nD) : SR.Idx → EReal := fun j => colSum (xarr V c) (j 1)

/-- The one write-back of window 2, after the last point, writes it: the block is the whole [1, 1024] array, read at zero offsets. -/
theorem flushed_eq2 (c : Dev nD) (t : Fin cfg0.N) (hf : (cfg0.win 2).flush t = true) :
    (dat0 V c).flushed 2 t = ((cfg0.win 2).blk t).view.read (Elt Ideal) (res2 V c) := by
  have hN : cfg0.N = 64 := N_0
  have h3 : t.val = 63 := by have := (flush0_2 t).mp hf; have := t.isLt; omega
  obtain rfl : t = tL := Fin.ext h3
  show (cfg0.win 2).cut (grid0.coords tL) ((dat0 V c).after 2 tL) = _
  rw [after0_2]
  have hz' : (fun a => win0_2.index tL a * main_v0_0.ty.shape.size a) = fun _ => 0 := funext fun a => by fin_cases a <;> decide +kernel
  refine Eq.trans ?_ (Memref.read_access_unit_zero (Elt Ideal) main_v0_0 hz' (fun a => by rw [congrFun hz' a]; simp) (res2 V c)).symm
  show ((outsAt0 V c 63 tL.isLt).1 : S1x1024.Idx → EReal) = res2 V c
  funext j
  obtain ⟨a, f, rfl⟩ : ∃ (a : Fin 1) (f : Fin 1024), j = ix2 a f := ⟨j 0, j 1, eq_ix2 j⟩
  obtain rfl : a = 0 := Subsingleton.elim _ _
  exact total2 V c f tL.isLt

/-- That block covers the array, so the array ends holding the column sums. -/
theorem final2 (c : Dev nD) : (dat0 V c).arrAt 2 cfg0.N = res2 V c :=
  (dat0 V c).arrAt_eq_of_cover 2 (res2 V c) (flushed_eq2 V c) fun i =>
    ⟨tL, (flush0_2 tL).mpr rfl, by
      show i ∈ ((View.whole main_v0_0).slice (win0_2.rect tL)).set
      rw [View.set_slice_whole, Rect.mem_set_unit]
      intro a
      have h0 : (i 0 : Nat) < 1 := (i 0).isLt
      have h1 : (i 1 : Nat) < 1024 := (i 1).isLt
      match a with
      | ⟨0, _⟩ => show win0_2.index tL 0 * win0_2.size 0 ≤ (i 0 : Nat) ∧ (i 0 : Nat) < win0_2.index tL 0 * win0_2.size 0 + win0_2.xsize (grid0.coords tL) 0
                  rw [show win0_2.index tL 0 * win0_2.size 0 = 0 from by decide +kernel, show win0_2.xsize (grid0.coords tL) 0 = 1 from by decide +kernel]; omega
      | ⟨1, _⟩ => show win0_2.index tL 1 * win0_2.size 1 ≤ (i 1 : Nat) ∧ (i 1 : Nat) < win0_2.index tL 1 * win0_2.size 1 + win0_2.xsize (grid0.coords tL) 1
                  rw [show win0_2.index tL 1 * win0_2.size 1 = 0 from by decide +kernel, show win0_2.xsize (grid0.coords tL) 1 = 1024 from by decide +kernel]; omega⟩

/-- What result array 3 ends holding: at (0, f) the column sum of y over all rows. -/
abbrev res3 (c : Dev nD) : SR.Idx → EReal := fun j => colSum (yarr V c) (j 1)

/-- The one write-back of window 3, after the last point, writes it: the block is the whole [1, 1024] array, read at zero offsets. -/
theorem flushed_eq3 (c : Dev nD) (t : Fin cfg0.N) (hf : (cfg0.win 3).flush t = true) :
    (dat0 V c).flushed 3 t = ((cfg0.win 3).blk t).view.read (Elt Ideal) (res3 V c) := by
  have hN : cfg0.N = 64 := N_0
  have h3 : t.val = 63 := by have := (flush0_3 t).mp hf; have := t.isLt; omega
  obtain rfl : t = tL := Fin.ext h3
  show (cfg0.win 3).cut (grid0.coords tL) ((dat0 V c).after 3 tL) = _
  rw [after0_3]
  have hz' : (fun a => win0_3.index tL a * main_v0_1.ty.shape.size a) = fun _ => 0 := funext fun a => by fin_cases a <;> decide +kernel
  refine Eq.trans ?_ (Memref.read_access_unit_zero (Elt Ideal) main_v0_1 hz' (fun a => by rw [congrFun hz' a]; simp) (res3 V c)).symm
  show ((outsAt0 V c 63 tL.isLt).2.1 : S1x1024.Idx → EReal) = res3 V c
  funext j
  obtain ⟨a, f, rfl⟩ : ∃ (a : Fin 1) (f : Fin 1024), j = ix2 a f := ⟨j 0, j 1, eq_ix2 j⟩
  obtain rfl : a = 0 := Subsingleton.elim _ _
  exact total3 V c f tL.isLt

/-- That block covers the array, so the array ends holding the column sums. -/
theorem final3 (c : Dev nD) : (dat0 V c).arrAt 3 cfg0.N = res3 V c :=
  (dat0 V c).arrAt_eq_of_cover 3 (res3 V c) (flushed_eq3 V c) fun i =>
    ⟨tL, (flush0_3 tL).mpr rfl, by
      show i ∈ ((View.whole main_v0_1).slice (win0_3.rect tL)).set
      rw [View.set_slice_whole, Rect.mem_set_unit]
      intro a
      have h0 : (i 0 : Nat) < 1 := (i 0).isLt
      have h1 : (i 1 : Nat) < 1024 := (i 1).isLt
      match a with
      | ⟨0, _⟩ => show win0_3.index tL 0 * win0_3.size 0 ≤ (i 0 : Nat) ∧ (i 0 : Nat) < win0_3.index tL 0 * win0_3.size 0 + win0_3.xsize (grid0.coords tL) 0
                  rw [show win0_3.index tL 0 * win0_3.size 0 = 0 from by decide +kernel, show win0_3.xsize (grid0.coords tL) 0 = 1 from by decide +kernel]; omega
      | ⟨1, _⟩ => show win0_3.index tL 1 * win0_3.size 1 ≤ (i 1 : Nat) ∧ (i 1 : Nat) < win0_3.index tL 1 * win0_3.size 1 + win0_3.xsize (grid0.coords tL) 1
                  rw [show win0_3.index tL 1 * win0_3.size 1 = 0 from by decide +kernel, show win0_3.xsize (grid0.coords tL) 1 = 1024 from by decide +kernel]; omega⟩

/-- What result array 4 ends holding: at (0, f) the column sum of x·x over all rows. -/
abbrev res4 (c : Dev nD) : SR.Idx → EReal := fun j => colSum (fun i => xarr V c i * xarr V c i) (j 1)

/-- The one write-back of window 4, after the last point, writes it: the block is the whole [1, 1024] array, read at zero offsets. -/
theorem flushed_eq4 (c : Dev nD) (t : Fin cfg0.N) (hf : (cfg0.win 4).flush t = true) :
    (dat0 V c).flushed 4 t = ((cfg0.win 4).blk t).view.read (Elt Ideal) (res4 V c) := by
  have hN : cfg0.N = 64 := N_0
  have h3 : t.val = 63 := by have := (flush0_4 t).mp hf; have := t.isLt; omega
  obtain rfl : t = tL := Fin.ext h3
  show (cfg0.win 4).cut (grid0.coords tL) ((dat0 V c).after 4 tL) = _
  rw [after0_4]
  have hz' : (fun a => win0_4.index tL a * main_v0_2.ty.shape.size a) = fun _ => 0 := funext fun a => by fin_cases a <;> decide +kernel
  refine Eq.trans ?_ (Memref.read_access_unit_zero (Elt Ideal) main_v0_2 hz' (fun a => by rw [congrFun hz' a]; simp) (res4 V c)).symm
  show ((outsAt0 V c 63 tL.isLt).2.2.1 : S1x1024.Idx → EReal) = res4 V c
  funext j
  obtain ⟨a, f, rfl⟩ : ∃ (a : Fin 1) (f : Fin 1024), j = ix2 a f := ⟨j 0, j 1, eq_ix2 j⟩
  obtain rfl : a = 0 := Subsingleton.elim _ _
  exact total4 V c f tL.isLt

/-- That block covers the array, so the array ends holding the column sums. -/
theorem final4 (c : Dev nD) : (dat0 V c).arrAt 4 cfg0.N = res4 V c :=
  (dat0 V c).arrAt_eq_of_cover 4 (res4 V c) (flushed_eq4 V c) fun i =>
    ⟨tL, (flush0_4 tL).mpr rfl, by
      show i ∈ ((View.whole main_v0_2).slice (win0_4.rect tL)).set
      rw [View.set_slice_whole, Rect.mem_set_unit]
      intro a
      have h0 : (i 0 : Nat) < 1 := (i 0).isLt
      have h1 : (i 1 : Nat) < 1024 := (i 1).isLt
      match a with
      | ⟨0, _⟩ => show win0_4.index tL 0 * win0_4.size 0 ≤ (i 0 : Nat) ∧ (i 0 : Nat) < win0_4.index tL 0 * win0_4.size 0 + win0_4.xsize (grid0.coords tL) 0
                  rw [show win0_4.index tL 0 * win0_4.size 0 = 0 from by decide +kernel, show win0_4.xsize (grid0.coords tL) 0 = 1 from by decide +kernel]; omega
      | ⟨1, _⟩ => show win0_4.index tL 1 * win0_4.size 1 ≤ (i 1 : Nat) ∧ (i 1 : Nat) < win0_4.index tL 1 * win0_4.size 1 + win0_4.xsize (grid0.coords tL) 1
                  rw [show win0_4.index tL 1 * win0_4.size 1 = 0 from by decide +kernel, show win0_4.xsize (grid0.coords tL) 1 = 1024 from by decide +kernel]; omega⟩

/-- What result array 5 ends holding: at (0, f) the column sum of y·y over all rows. -/
abbrev res5 (c : Dev nD) : SR.Idx → EReal := fun j => colSum (fun i => yarr V c i * yarr V c i) (j 1)

/-- The one write-back of window 5, after the last point, writes it: the block is the whole [1, 1024] array, read at zero offsets. -/
theorem flushed_eq5 (c : Dev nD) (t : Fin cfg0.N) (hf : (cfg0.win 5).flush t = true) :
    (dat0 V c).flushed 5 t = ((cfg0.win 5).blk t).view.read (Elt Ideal) (res5 V c) := by
  have hN : cfg0.N = 64 := N_0
  have h3 : t.val = 63 := by have := (flush0_5 t).mp hf; have := t.isLt; omega
  obtain rfl : t = tL := Fin.ext h3
  show (cfg0.win 5).cut (grid0.coords tL) ((dat0 V c).after 5 tL) = _
  rw [after0_5]
  have hz' : (fun a => win0_5.index tL a * main_v0_3.ty.shape.size a) = fun _ => 0 := funext fun a => by fin_cases a <;> decide +kernel
  refine Eq.trans ?_ (Memref.read_access_unit_zero (Elt Ideal) main_v0_3 hz' (fun a => by rw [congrFun hz' a]; simp) (res5 V c)).symm
  show ((outsAt0 V c 63 tL.isLt).2.2.2.1 : S1x1024.Idx → EReal) = res5 V c
  funext j
  obtain ⟨a, f, rfl⟩ : ∃ (a : Fin 1) (f : Fin 1024), j = ix2 a f := ⟨j 0, j 1, eq_ix2 j⟩
  obtain rfl : a = 0 := Subsingleton.elim _ _
  exact total5 V c f tL.isLt

/-- That block covers the array, so the array ends holding the column sums. -/
theorem final5 (c : Dev nD) : (dat0 V c).arrAt 5 cfg0.N = res5 V c :=
  (dat0 V c).arrAt_eq_of_cover 5 (res5 V c) (flushed_eq5 V c) fun i =>
    ⟨tL, (flush0_5 tL).mpr rfl, by
      show i ∈ ((View.whole main_v0_3).slice (win0_5.rect tL)).set
      rw [View.set_slice_whole, Rect.mem_set_unit]
      intro a
      have h0 : (i 0 : Nat) < 1 := (i 0).isLt
      have h1 : (i 1 : Nat) < 1024 := (i 1).isLt
      match a with
      | ⟨0, _⟩ => show win0_5.index tL 0 * win0_5.size 0 ≤ (i 0 : Nat) ∧ (i 0 : Nat) < win0_5.index tL 0 * win0_5.size 0 + win0_5.xsize (grid0.coords tL) 0
                  rw [show win0_5.index tL 0 * win0_5.size 0 = 0 from by decide +kernel, show win0_5.xsize (grid0.coords tL) 0 = 1 from by decide +kernel]; omega
      | ⟨1, _⟩ => show win0_5.index tL 1 * win0_5.size 1 ≤ (i 1 : Nat) ∧ (i 1 : Nat) < win0_5.index tL 1 * win0_5.size 1 + win0_5.xsize (grid0.coords tL) 1
                  rw [show win0_5.index tL 1 * win0_5.size 1 = 0 from by decide +kernel, show win0_5.xsize (grid0.coords tL) 1 = 1024 from by decide +kernel]; omega⟩

/-- What result array 6 ends holding: at (0, f) the column sum of x·y over all rows. -/
abbrev res6 (c : Dev nD) : SR.Idx → EReal := fun j => colSum (fun i => xarr V c i * yarr V c i) (j 1)

/-- The one write-back of window 6, after the last point, writes it: the block is the whole [1, 1024] array, read at zero offsets. -/
theorem flushed_eq6 (c : Dev nD) (t : Fin cfg0.N) (hf : (cfg0.win 6).flush t = true) :
    (dat0 V c).flushed 6 t = ((cfg0.win 6).blk t).view.read (Elt Ideal) (res6 V c) := by
  have hN : cfg0.N = 64 := N_0
  have h3 : t.val = 63 := by have := (flush0_6 t).mp hf; have := t.isLt; omega
  obtain rfl : t = tL := Fin.ext h3
  show (cfg0.win 6).cut (grid0.coords tL) ((dat0 V c).after 6 tL) = _
  rw [after0_6]
  have hz' : (fun a => win0_6.index tL a * main_v0_4.ty.shape.size a) = fun _ => 0 := funext fun a => by fin_cases a <;> decide +kernel
  refine Eq.trans ?_ (Memref.read_access_unit_zero (Elt Ideal) main_v0_4 hz' (fun a => by rw [congrFun hz' a]; simp) (res6 V c)).symm
  show ((outsAt0 V c 63 tL.isLt).2.2.2.2 : S1x1024.Idx → EReal) = res6 V c
  funext j
  obtain ⟨a, f, rfl⟩ : ∃ (a : Fin 1) (f : Fin 1024), j = ix2 a f := ⟨j 0, j 1, eq_ix2 j⟩
  obtain rfl : a = 0 := Subsingleton.elim _ _
  exact total6 V c f tL.isLt

/-- That block covers the array, so the array ends holding the column sums. -/
theorem final6 (c : Dev nD) : (dat0 V c).arrAt 6 cfg0.N = res6 V c :=
  (dat0 V c).arrAt_eq_of_cover 6 (res6 V c) (flushed_eq6 V c) fun i =>
    ⟨tL, (flush0_6 tL).mpr rfl, by
      show i ∈ ((View.whole main_v0_4).slice (win0_6.rect tL)).set
      rw [View.set_slice_whole, Rect.mem_set_unit]
      intro a
      have h0 : (i 0 : Nat) < 1 := (i 0).isLt
      have h1 : (i 1 : Nat) < 1024 := (i 1).isLt
      match a with
      | ⟨0, _⟩ => show win0_6.index tL 0 * win0_6.size 0 ≤ (i 0 : Nat) ∧ (i 0 : Nat) < win0_6.index tL 0 * win0_6.size 0 + win0_6.xsize (grid0.coords tL) 0
                  rw [show win0_6.index tL 0 * win0_6.size 0 = 0 from by decide +kernel, show win0_6.xsize (grid0.coords tL) 0 = 1 from by decide +kernel]; omega
      | ⟨1, _⟩ => show win0_6.index tL 1 * win0_6.size 1 ≤ (i 1 : Nat) ∧ (i 1 : Nat) < win0_6.index tL 1 * win0_6.size 1 + win0_6.xsize (grid0.coords tL) 1
                  rw [show win0_6.index tL 1 * win0_6.size 1 = 0 from by decide +kernel, show win0_6.xsize (grid0.coords tL) 1 = 1024 from by decide +kernel]; omega⟩

end Final

/-- The statistics region streams the two data arrays in 64 blocks of 1024 rows and keeps five running
    per-feature sums in output blocks whose index never moves; each is written back once, after the last point.
    So at the region's exit the five [1, 1024] arrays hold the column sums of x, y, x·x, y·y, x·y. -/
theorem sum_r (c : Dev nD) :
    ((dat0 V c).arrAt 2 cfg0.N : SR.Idx → EReal) = fun j => colSum (V c main_arg0) (j 1) := final2 V c
theorem sum_i (c : Dev nD) :
    ((dat0 V c).arrAt 3 cfg0.N : SR.Idx → EReal) = fun j => colSum (V c main_arg1) (j 1) := final3 V c
theorem sum_rr (c : Dev nD) :
    ((dat0 V c).arrAt 4 cfg0.N : SR.Idx → EReal) = fun j => colSum2 (V c main_arg0) (V c main_arg0) (j 1) := final4 V c
theorem sum_ii (c : Dev nD) :
    ((dat0 V c).arrAt 5 cfg0.N : SR.Idx → EReal) = fun j => colSum2 (V c main_arg1) (V c main_arg1) (j 1) := final5 V c
theorem sum_ri (c : Dev nD) :
    ((dat0 V c).arrAt 6 cfg0.N : SR.Idx → EReal) = fun j => colSum2 (V c main_arg0) (V c main_arg1) (j 1) := final6 V c

end Cert.KernelIdeal.Stats

end
-- ==== Proof.Region1.lean ====
import proofs.«137192_j23862838297129_1_alg».proof.Proof.Gen.KernelIdeal.Frame
import proofs.«137192_j23862838297129_1_alg».proof.Proof.Spec
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whiten

open Cert.KernelIdeal Cert.KernelIdeal.Gen Cert.CBN

/-! ## The body's stored values at an index -/

/-- The zero offset of a whole-buffer rectangle. -/
theorem hz : (![0, 0] : Fin 2 → Nat) = fun _ => 0 := funext fun a => by fin_cases a <;> rfl

/-- A [1, 1024] row cast to its own shape and broadcast down 512 rows reads, at (p, q), the row at q. -/
theorem row_apply {α : Type} (v : S1x1024.Idx → α) (p : Fin 512) (q : Fin 1024) :
    broadcastTo S512x1024 (shapeCast S1x1024 v shapeCasts_S1x1024_S1x1024) broadcasts_S1x1024_S512x1024 (ix2 p q)
      = v (ix2 (0 : Fin 1) q) := by
  rw [shapeCast_self]
  exact broadcastTo_1b_ab_apply v broadcasts_S1x1024_S512x1024 p q

/-- The real output's stored value at (p, q): the affine map of the two data entries there and of the ten rows at q. -/
theorem payR_apply (x y : Vec Ideal S512x1024 .f32) (μr μi wrr wri wii grr gri br : Vec Ideal S1x1024 .f32)
    (p : Fin 512) (q : Fin 1024) :
    k1_pay1 (k1_pay7 x y μr μi wrr wri wri wii grr gri) br (ix2 p q)
      = affR (x (ix2 p q)) (y (ix2 p q)) (μr (ix2 0 q)) (μi (ix2 0 q)) (wrr (ix2 0 q)) (wri (ix2 0 q)) (wii (ix2 0 q))
          (grr (ix2 0 q)) (gri (ix2 0 q)) (br (ix2 0 q)) := by
  unfold k1_pay1 k1_pay7 k1_pay5 k1_pay6 k1_pay3 k1_pay4 affR
  simp only [addf_apply, mulf_apply, subf_apply, row_apply]

/-- The imaginary output's stored value at (p, q). -/
theorem payI_apply (x y : Vec Ideal S512x1024 .f32) (μr μi wrr wri wii gri gii bi : Vec Ideal S1x1024 .f32)
    (p : Fin 512) (q : Fin 1024) :
    k1_pay2 (k1_pay5 x y μr μi wrr wri) (k1_pay6 x y μr μi wri wii) gri gii bi (ix2 p q)
      = affI (x (ix2 p q)) (y (ix2 p q)) (μr (ix2 0 q)) (μi (ix2 0 q)) (wrr (ix2 0 q)) (wri (ix2 0 q)) (wii (ix2 0 q))
          (gri (ix2 0 q)) (gii (ix2 0 q)) (bi (ix2 0 q)) := by
  unfold k1_pay2 k1_pay5 k1_pay6 k1_pay3 k1_pay4 affI
  simp only [addf_apply, mulf_apply, subf_apply, row_apply]

-- The buffer contents when the whitening region is entered: any.
variable (V : (c : Dev nD) → (b : Ref sig .tc) → Buf (Elt Ideal) ((c : Thread nD τ).loc b))

/-! ## The windows' blocks as parts of their arrays -/

/-- The printed index maps over the grid: the two data windows and the two output windows take row block t at
    point t. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_12.index t (0 : Fin 2) = t.val ∧ win1_12.index t (1 : Fin 2) = 0)
    ∧ (win1_13.index t (0 : Fin 2) = t.val ∧ win1_13.index t (1 : Fin 2) = 0) :=
  (by decide +kernel : ∀ t : Fin grid1.N, _)

/-- The ten row windows take their one block, (0, 0), at every point. -/
theorem row_facts : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

/-- The block of the first data window at point t, at (p, q), is the array at row 512 t + p, column q. -/
theorem xblk_apply (c : Dev nD) (t : Fin cfg1.N) (p : Fin 512) (q : Fin 1024) (i : SN.Idx)
    (h0 : (i 0).val = 512 * t.val + p.val) (h1 : (i 1).val = q.val) :
    (iblk1 V c 0 t : Vec Ideal S512x1024 .f32) (ix2 p q) = (V c main_arg0 : SN.Idx → EReal) i := by
  obtain ⟨⟨e0, e1⟩, -⟩ := idx_facts t
  unfold iblk1
  rw [View.read_apply]
  show V c main_arg0 _ = V c main_arg0 _
  congr 1
  funext a
  apply Fin.ext
  match a with
  | ⟨0, _⟩ => show win1_0.index t (0 : Fin 2) * 512 + 1 * p.val = (i 0).val; omega
  | ⟨1, _⟩ => show win1_0.index t (1 : Fin 2) * 1024 + 1 * q.val = (i 1).val; omega

/-- The same for the second data window. -/
theorem yblk_apply (c : Dev nD) (t : Fin cfg1.N) (p : Fin 512) (q : Fin 1024) (i : SN.Idx)
    (h0 : (i 0).val = 512 * t.val + p.val) (h1 : (i 1).val = q.val) :
    (iblk1 V c 1 t : Vec Ideal S512x1024 .f32) (ix2 p q) = (V c main_arg1 : SN.Idx → EReal) i := by
  obtain ⟨-, ⟨e0, e1⟩, -⟩ := idx_facts t
  unfold iblk1
  rw [View.read_apply]
  show V c main_arg1 _ = V c main_arg1 _
  congr 1
  funext a
  apply Fin.ext
  match a with
  | ⟨0, _⟩ => show win1_1.index t (0 : Fin 2) * 512 + 1 * p.val = (i 0).val; omega
  | ⟨1, _⟩ => show win1_1.index t (1 : Fin 2) * 1024 + 1 * q.val = (i 1).val; omega

/-- Window 2's block (the row holding the mean of x) is its whole array at every point. -/
theorem μr_blk_apply (c : Dev nD) (t : Fin cfg1.N) (q f : Fin 1024) (hf : f.val = q.val) :
    (iblk1 V c 2 t : Vec Ideal S1x1024 .f32) (ix2 (0 : Fin 1) q) = (V c main_v2 : SR.Idx → EReal) (ix2 (0 : Fin 1) f) := by
  obtain ⟨e0, e1⟩ := (row_facts t).1
  unfold iblk1
  rw [View.read_apply]
  show V c main_v2 _ = V c main_v2 _
  congr 1
  funext a
  apply Fin.ext
  match a with
  | ⟨0, _⟩ => show win1_2.index t (0 : Fin 2) * 1 + 1 * 0 = 0; omega
  | ⟨1, _⟩ => show win1_2.index t (1 : Fin 2) * 1024 + 1 * q.val = f.val; omega

/-- Window 3's block (the row holding the mean of y) is its whole array at every point. -/
theorem μi_blk_apply (c : Dev nD) (t : Fin cfg1.N) (q f : Fin 1024) (hf : f.val = q.val) :
    (iblk1 V c 3 t : Vec Ideal S1x1024 .f32) (ix2 (0 : Fin 1) q) = (V c main_v4 : SR.Idx → EReal) (ix2 (0 : Fin 1) f) := by
  obtain ⟨e0, e1⟩ := (row_facts t).2.1
  unfold iblk1
  rw [View.read_apply]
  show V c main_v4 _ = V c main_v4 _
  congr 1
  funext a
  apply Fin.ext
  match a with
  | ⟨0, _⟩ => show win1_3.index t (0 : Fin 2) * 1 + 1 * 0 = 0; omega
  | ⟨1, _⟩ => show win1_3.index t (1 : Fin 2) * 1024 + 1 * q.val = f.val; omega

/-- Window 4's block (the row holding the whitening weight w_rr) is its whole array at every point. -/
theorem wrr_blk_apply (c : Dev nD) (t : Fin cfg1.N) (q f : Fin 1024) (hf : f.val = q.val) :
    (iblk1 V c 4 t : Vec Ideal S1x1024 .f32) (ix2 (0 : Fin 1) q) = (V c main_v32 : SR.Idx → EReal) (ix2 (0 : Fin 1) f) := by
  obtain ⟨e0, e1⟩ := (row_facts t).2.2.1
  unfold iblk1
  rw [View.read_apply]
  show V c main_v32 _ = V c main_v32 _
  congr 1
  funext a
  apply Fin.ext
  match a with
  | ⟨0, _⟩ => show win1_4.index t (0 : Fin 2) * 1 + 1 * 0 = 0; omega
  | ⟨1, _⟩ => show win1_4.index t (1 : Fin 2) * 1024 + 1 * q.val = f.val; omega

/-- Window 5's block (the row holding the whitening weight w_ri) is its whole array at every point. -/
theorem wri_blk_apply (c : Dev nD) (t : Fin cfg1.N) (q f : Fin 1024) (hf : f.val = q.val) :
    (iblk1 V c 5 t : Vec Ideal S1x1024 .f32) (ix2 (0 : Fin 1) q) = (V c main_v36 : SR.Idx → EReal) (ix2 (0 : Fin 1) f) := by
  obtain ⟨e0, e1⟩ := (row_facts t).2.2.2.1
  unfold iblk1
  rw [View.read_apply]
  show V c main_v36 _ = V c main_v36 _
  congr 1
  funext a
  apply Fin.ext
  match a with
  | ⟨0, _⟩ => show win1_5.index t (0 : Fin 2) * 1 + 1 * 0 = 0; omega
  | ⟨1, _⟩ => show win1_5.index t (1 : Fin 2) * 1024 + 1 * q.val = f.val; omega

/-- Window 6's block (the row holding the whitening weight w_ii) is its whole array at every point. -/
theorem wii_blk_apply (c : Dev nD) (t : Fin cfg1.N) (q f : Fin 1024) (hf : f.val = q.val) :
    (iblk1 V c 6 t : Vec Ideal S1x1024 .f32) (ix2 (0 : Fin 1) q) = (V c main_v34 : SR.Idx → EReal) (ix2 (0 : Fin 1) f) := by
  obtain ⟨e0, e1⟩ := (row_facts t).2.2.2.2.1
  unfold iblk1
  rw [View.read_apply]
  show V c main_v34 _ = V c main_v34 _
  congr 1
  funext a
  apply Fin.ext
  match a with
  | ⟨0, _⟩ => show win1_6.index t (0 : Fin 2) * 1 + 1 * 0 = 0; omega
  | ⟨1, _⟩ => show win1_6.index t (1 : Fin 2) * 1024 + 1 * q.val = f.val; omega

/-- Window 7's block (the row holding the gain g_rr) is its whole array at every point. -/
theorem grr_blk_apply (c : Dev nD) (t : Fin cfg1.N) (q f : Fin 1024) (hf : f.val = q.val) :
    (iblk1 V c 7 t : Vec Ideal S1x1024 .f32) (ix2 (0 : Fin 1) q) = (V c main_v37 : SR.Idx → EReal) (ix2 (0 : Fin 1) f) := by
  obtain ⟨e0, e1⟩ := (row_facts t).2.2.2.2.2.1
  unfold iblk1
  rw [View.read_apply]
  show V c main_v37 _ = V c main_v37 _
  congr 1
  funext a
  apply Fin.ext
  match a with
  | ⟨0, _⟩ => show win1_7.index t (0 : Fin 2) * 1 + 1 * 0 = 0; omega
  | ⟨1, _⟩ => show win1_7.index t (1 : Fin 2) * 1024 + 1 * q.val = f.val; omega

/-- Window 8's block (the row holding the gain g_ri) is its whole array at every point. -/
theorem gri_blk_apply (c : Dev nD) (t : Fin cfg1.N) (q f : Fin 1024) (hf : f.val = q.val) :
    (iblk1 V c 8 t : Vec Ideal S1x1024 .f32) (ix2 (0 : Fin 1) q) = (V c main_v38 : SR.Idx → EReal) (ix2 (0 : Fin 1) f) := by
  obtain ⟨e0, e1⟩ := (row_facts t).2.2.2.2.2.2.1
  unfold iblk1
  rw [View.read_apply]
  show V c main_v38 _ = V c main_v38 _
  congr 1
  funext a
  apply Fin.ext
  match a with
  | ⟨0, _⟩ => show win1_8.index t (0 : Fin 2) * 1 + 1 * 0 = 0; omega
  | ⟨1, _⟩ => show win1_8.index t (1 : Fin 2) * 1024 + 1 * q.val = f.val; omega

/-- Window 9's block (the row holding the gain g_ii) is its whole array at every point. -/
theorem gii_blk_apply (c : Dev nD) (t : Fin cfg1.N) (q f : Fin 1024) (hf : f.val = q.val) :
    (iblk1 V c 9 t : Vec Ideal S1x1024 .f32) (ix2 (0 : Fin 1) q) = (V c main_v39 : SR.Idx → EReal) (ix2 (0 : Fin 1) f) := by
  obtain ⟨e0, e1⟩ := (row_facts t).2.2.2.2.2.2.2.1
  unfold iblk1
  rw [View.read_apply]
  show V c main_v39 _ = V c main_v39 _
  congr 1
  funext a
  apply Fin.ext
  match a with
  | ⟨0, _⟩ => show win1_9.index t (0 : Fin 2) * 1 + 1 * 0 = 0; omega
  | ⟨1, _⟩ => show win1_9.index t (1 : Fin 2) * 1024 + 1 * q.val = f.val; omega

/-- Window 10's block (the row holding the real bias) is its whole array at every point. -/
theorem br_blk_apply (c : Dev nD) (t : Fin cfg1.N) (q f : Fin 1024) (hf : f.val = q.val) :
    (iblk1 V c 10 t : Vec Ideal S1x1024 .f32) (ix2 (0 : Fin 1) q) = (V c main_v40 : SR.Idx → EReal) (ix2 (0 : Fin 1) f) := by
  obtain ⟨e0, e1⟩ := (row_facts t).2.2.2.2.2.2.2.2.1
  unfold iblk1
  rw [View.read_apply]
  show V c main_v40 _ = V c main_v40 _
  congr 1
  funext a
  apply Fin.ext
  match a with
  | ⟨0, _⟩ => show win1_10.index t (0 : Fin 2) * 1 + 1 * 0 = 0; omega
  | ⟨1, _⟩ => show win1_10.index t (1 : Fin 2) * 1024 + 1 * q.val = f.val; omega

/-- Window 11's block (the row holding the imaginary bias) is its whole array at every point. -/
theorem bi_blk_apply (c : Dev nD) (t : Fin cfg1.N) (q f : Fin 1024) (hf : f.val = q.val) :
    (iblk1 V c 11 t : Vec Ideal S1x1024 .f32) (ix2 (0 : Fin 1) q) = (V c main_v41 : SR.Idx → EReal) (ix2 (0 : Fin 1) f) := by
  obtain ⟨e0, e1⟩ := (row_facts t).2.2.2.2.2.2.2.2.2
  unfold iblk1
  rw [View.read_apply]
  show V c main_v41 _ = V c main_v41 _
  congr 1
  funext a
  apply Fin.ext
  match a with
  | ⟨0, _⟩ => show win1_11.index t (0 : Fin 2) * 1 + 1 * 0 = 0; omega
  | ⟨1, _⟩ => show win1_11.index t (1 : Fin 2) * 1024 + 1 * q.val = f.val; omega

/-! ## The two result arrays as functions of the region-entry contents -/

/-- The real result: at every index the affine map of the two data entries there and of the rows at its column. -/
abbrev wholeR (c : Dev nD) : SN.Idx → EReal := fun i =>
  affR (V c main_arg0 i) (V c main_arg1 i)
    ((V c main_v2 : SR.Idx → EReal) (ix2 0 (i 1))) ((V c main_v4 : SR.Idx → EReal) (ix2 0 (i 1)))
    ((V c main_v32 : SR.Idx → EReal) (ix2 0 (i 1))) ((V c main_v36 : SR.Idx → EReal) (ix2 0 (i 1)))
    ((V c main_v34 : SR.Idx → EReal) (ix2 0 (i 1)))
    ((V c main_v37 : SR.Idx → EReal) (ix2 0 (i 1))) ((V c main_v38 : SR.Idx → EReal) (ix2 0 (i 1)))
    ((V c main_v40 : SR.Idx → EReal) (ix2 0 (i 1)))

/-- The imaginary result. -/
abbrev wholeI (c : Dev nD) : SN.Idx → EReal := fun i =>
  affI (V c main_arg0 i) (V c main_arg1 i)
    ((V c main_v2 : SR.Idx → EReal) (ix2 0 (i 1))) ((V c main_v4 : SR.Idx → EReal) (ix2 0 (i 1)))
    ((V c main_v32 : SR.Idx → EReal) (ix2 0 (i 1))) ((V c main_v36 : SR.Idx → EReal) (ix2 0 (i 1)))
    ((V c main_v34 : SR.Idx → EReal) (ix2 0 (i 1)))
    ((V c main_v38 : SR.Idx → EReal) (ix2 0 (i 1))) ((V c main_v39 : SR.Idx → EReal) (ix2 0 (i 1)))
    ((V c main_v41 : SR.Idx → EReal) (ix2 0 (i 1)))

/-- What the body computes for the real output at point t, at (p, q), is the real result at any array index in row
    512 t + p and column q. -/
theorem bodyR_apply (c : Dev nD) (t : Fin cfg1.N) (p : Fin 512) (q : Fin 1024) (i : SN.Idx)
    (h0 : (i 0).val = 512 * t.val + p.val) (h1 : (i 1).val = q.val) :
    k1_pay1 (k1_pay7 (iblk1 V c 0 t) (iblk1 V c 1 t) (iblk1 V c 2 t) (iblk1 V c 3 t) (iblk1 V c 4 t) (iblk1 V c 5 t)
        (iblk1 V c 5 t) (iblk1 V c 6 t) (iblk1 V c 7 t) (iblk1 V c 8 t)) (iblk1 V c 10 t) (ix2 p q)
      = wholeR V c i := by
  refine (payR_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 10 t) p q).trans ?_
  rw [xblk_apply V c t p q i h0 h1, yblk_apply V c t p q i h0 h1, μr_blk_apply V c t q (i 1) h1,
    μi_blk_apply V c t q (i 1) h1, wrr_blk_apply V c t q (i 1) h1, wri_blk_apply V c t q (i 1) h1,
    wii_blk_apply V c t q (i 1) h1, grr_blk_apply V c t q (i 1) h1, gri_blk_apply V c t q (i 1) h1,
    br_blk_apply V c t q (i 1) h1]

/-- The same for the imaginary output. -/
theorem bodyI_apply (c : Dev nD) (t : Fin cfg1.N) (p : Fin 512) (q : Fin 1024) (i : SN.Idx)
    (h0 : (i 0).val = 512 * t.val + p.val) (h1 : (i 1).val = q.val) :
    k1_pay2 (k1_pay5 (iblk1 V c 0 t) (iblk1 V c 1 t) (iblk1 V c 2 t) (iblk1 V c 3 t) (iblk1 V c 4 t) (iblk1 V c 5 t))
        (k1_pay6 (iblk1 V c 0 t) (iblk1 V c 1 t) (iblk1 V c 2 t) (iblk1 V c 3 t) (iblk1 V c 5 t) (iblk1 V c 6 t))
        (iblk1 V c 8 t) (iblk1 V c 9 t) (iblk1 V c 11 t) (ix2 p q)
      = wholeI V c i := by
  refine (payI_apply (iblk1 V c 0 t) (iblk1 V c 1 t) (iblk1 V c 2 t) (iblk1 V c 3 t) (iblk1 V c 4 t) (iblk1 V c 5 t)
    (iblk1 V c 6 t) (iblk1 V c 8 t) (iblk1 V c 9 t) (iblk1 V c 11 t) p q).trans ?_
  rw [xblk_apply V c t p q i h0 h1, yblk_apply V c t p q i h0 h1, μr_blk_apply V c t q (i 1) h1,
    μi_blk_apply V c t q (i 1) h1, wrr_blk_apply V c t q (i 1) h1, wri_blk_apply V c t q (i 1) h1,
    wii_blk_apply V c t q (i 1) h1, gri_blk_apply V c t q (i 1) h1, gii_blk_apply V c t q (i 1) h1,
    bi_blk_apply V c t q (i 1) h1]

/-! ## From blocks to the arrays -/

/-- What point t writes back to the real result array is block t of the real result. -/
theorem flushedR_eq (c : Dev nD) (t : Fin cfg1.N) :
    (dat1 V c).flushed 12 t = ((cfg1.win 12).blk t).view.read (Elt Ideal) (wholeR V c) := by
  show (cfg1.win 12).cut (grid1.coords t) ((dat1 V c).after 12 t) = _
  rw [after1_12]
  unfold out1_12
  rw [View.canon_unit_zero hz]
  simp only [View.ld_unit_zero (S := S512x1024) hz, View.ld_unit_zero (S := S1x1024) hz]
  funext j
  obtain ⟨p, q, rfl⟩ : ∃ (p : Fin 512) (q : Fin 1024), j = ix2 p q := ⟨j 0, j 1, eq_ix2 j⟩
  obtain ⟨-, -, ⟨e0, e1⟩, -⟩ := idx_facts t
  refine bodyR_apply V c t p q (((cfg1.win 12).blk t).view.emb (ix2 p q)) ?_ ?_
  · show win1_12.index t (0 : Fin 2) * 512 + 1 * p.val = 512 * t.val + p.val; omega
  · show win1_12.index t (1 : Fin 2) * 1024 + 1 * q.val = q.val; omega

/-- An array index is in point t's block of the real result iff each coordinate is in the block's range. -/
theorem mem_blkR (t : Fin cfg1.N) (i : SN.Idx) :
    i ∈ ((cfg1.win 12).blk t).view.set ↔ ∀ a : Fin 2, win1_12.index t a * S512x1024.size a ≤ (i a).val
      ∧ (i a).val < win1_12.index t a * S512x1024.size a + S512x1024.size a := by
  show i ∈ ((View.whole main_v42_0).slice (win1_12.rect t)).set ↔ _
  rw [View.set_slice_whole, Rect.mem_set_unit]
  exact Iff.rfl

/-- Row r of the real result array lies in the block of point r / 512, which writes back. -/
theorem coverR (i : SN.Idx) :
    ∃ t : Fin cfg1.N, (cfg1.win 12).flush t = true ∧ i ∈ ((cfg1.win 12).blk t).view.set := by
  have hi0 : (i 0).val < 65536 := (i 0).isLt
  have hi1 : (i 1).val < 1024 := (i 1).isLt
  have hN : cfg1.N = 128 := N_1
  obtain ⟨t, ht⟩ : ∃ t : Fin cfg1.N, t.val = (i 0).val / 512 := ⟨⟨(i 0).val / 512, by rw [hN]; omega⟩, rfl⟩
  obtain ⟨-, -, ⟨e0, e1⟩, -⟩ := idx_facts t
  refine ⟨t, flush1_12 t, ?_⟩
  rw [mem_blkR]
  intro a
  match a with
  | ⟨0, _⟩ =>
    show win1_12.index t (0 : Fin 2) * 512 ≤ (i 0).val ∧ (i 0).val < win1_12.index t (0 : Fin 2) * 512 + 512
    omega
  | ⟨1, _⟩ =>
    show win1_12.index t (1 : Fin 2) * 1024 ≤ (i 1).val ∧ (i 1).val < win1_12.index t (1 : Fin 2) * 1024 + 1024
    omega

/-- What point t writes back to the imaginary result array is block t of the imaginary result. -/
theorem flushedI_eq (c : Dev nD) (t : Fin cfg1.N) :
    (dat1 V c).flushed 13 t = ((cfg1.win 13).blk t).view.read (Elt Ideal) (wholeI V c) := by
  show (cfg1.win 13).cut (grid1.coords t) ((dat1 V c).after 13 t) = _
  rw [after1_13]
  unfold out1_13
  rw [View.canon_unit_zero hz]
  simp only [View.ld_unit_zero (S := S512x1024) hz, View.ld_unit_zero (S := S1x1024) hz]
  funext j
  obtain ⟨p, q, rfl⟩ : ∃ (p : Fin 512) (q : Fin 1024), j = ix2 p q := ⟨j 0, j 1, eq_ix2 j⟩
  obtain ⟨-, -, -, ⟨e0, e1⟩⟩ := idx_facts t
  refine bodyI_apply V c t p q (((cfg1.win 13).blk t).view.emb (ix2 p q)) ?_ ?_
  · show win1_13.index t (0 : Fin 2) * 512 + 1 * p.val = 512 * t.val + p.val; omega
  · show win1_13.index t (1 : Fin 2) * 1024 + 1 * q.val = q.val; omega

/-- An array index is in point t's block of the imaginary result iff each coordinate is in the block's range. -/
theorem mem_blkI (t : Fin cfg1.N) (i : SN.Idx) :
    i ∈ ((cfg1.win 13).blk t).view.set ↔ ∀ a : Fin 2, win1_13.index t a * S512x1024.size a ≤ (i a).val
      ∧ (i a).val < win1_13.index t a * S512x1024.size a + S512x1024.size a := by
  show i ∈ ((View.whole main_v42_1).slice (win1_13.rect t)).set ↔ _
  rw [View.set_slice_whole, Rect.mem_set_unit]
  exact Iff.rfl

/-- Row r of the imaginary result array lies in the block of point r / 512, which writes back. -/
theorem coverI (i : SN.Idx) :
    ∃ t : Fin cfg1.N, (cfg1.win 13).flush t = true ∧ i ∈ ((cfg1.win 13).blk t).view.set := by
  have hi0 : (i 0).val < 65536 := (i 0).isLt
  have hi1 : (i 1).val < 1024 := (i 1).isLt
  have hN : cfg1.N = 128 := N_1
  obtain ⟨t, ht⟩ : ∃ t : Fin cfg1.N, t.val = (i 0).val / 512 := ⟨⟨(i 0).val / 512, by rw [hN]; omega⟩, rfl⟩
  obtain ⟨-, -, -, ⟨e0, e1⟩⟩ := idx_facts t
  refine ⟨t, flush1_13 t, ?_⟩
  rw [mem_blkI]
  intro a
  match a with
  | ⟨0, _⟩ =>
    show win1_13.index t (0 : Fin 2) * 512 ≤ (i 0).val ∧ (i 0).val < win1_13.index t (0 : Fin 2) * 512 + 512
    omega
  | ⟨1, _⟩ =>
    show win1_13.index t (1 : Fin 2) * 1024 ≤ (i 1).val ∧ (i 1).val < win1_13.index t (1 : Fin 2) * 1024 + 1024
    omega

/-- The whitening region is pointwise: block `t` of 512 rows of each output is the affine map of the same rows of
    the two data arrays, with the ten [1, 1024] rows (means, whitening weights, gains, biases) broadcast down the
    rows.  So each result array is that map at every index. -/
theorem out_r (c : Dev nD) :
    ((dat1 V c).arrAt 12 cfg1.N : SN.Idx → EReal) = fun i =>
      affR (V c main_arg0 i) (V c main_arg1 i)
        ((V c main_v2 : SR.Idx → EReal) (ix2 0 (i 1))) ((V c main_v4 : SR.Idx → EReal) (ix2 0 (i 1)))
        ((V c main_v32 : SR.Idx → EReal) (ix2 0 (i 1))) ((V c main_v36 : SR.Idx → EReal) (ix2 0 (i 1)))
        ((V c main_v34 : SR.Idx → EReal) (ix2 0 (i 1)))
        ((V c main_v37 : SR.Idx → EReal) (ix2 0 (i 1))) ((V c main_v38 : SR.Idx → EReal) (ix2 0 (i 1)))
        ((V c main_v40 : SR.Idx → EReal) (ix2 0 (i 1))) :=
  (dat1 V c).arrAt_eq_of_cover 12 (wholeR V c) (fun t _ => flushedR_eq V c t) coverR
theorem out_i (c : Dev nD) :
    ((dat1 V c).arrAt 13 cfg1.N : SN.Idx → EReal) = fun i =>
      affI (V c main_arg0 i) (V c main_arg1 i)
        ((V c main_v2 : SR.Idx → EReal) (ix2 0 (i 1))) ((V c main_v4 : SR.Idx → EReal) (ix2 0 (i 1)))
        ((V c main_v32 : SR.Idx → EReal) (ix2 0 (i 1))) ((V c main_v36 : SR.Idx → EReal) (ix2 0 (i 1)))
        ((V c main_v34 : SR.Idx → EReal) (ix2 0 (i 1)))
        ((V c main_v38 : SR.Idx → EReal) (ix2 0 (i 1))) ((V c main_v39 : SR.Idx → EReal) (ix2 0 (i 1)))
        ((V c main_v41 : SR.Idx → EReal) (ix2 0 (i 1))) :=
  (dat1 V c).arrAt_eq_of_cover 13 (wholeI V c) (fun t _ => flushedI_eq V c t) coverI

end Cert.KernelIdeal.Whiten

end
-- ==== Proof.HostMid.lean ====
import proofs.«137192_j23862838297129_1_alg».proof.Proof.Gen.KernelIdeal.Frame
import proofs.«137192_j23862838297129_1_alg».proof.Proof.Spec
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mid

open Cert.KernelIdeal Cert.KernelIdeal.Gen Cert.CBN

variable (m : (ℓ : Loc nD τ sig) → Buf (Elt Ideal) ℓ) (ρ : Dev nD → PrngReg)

/-- The host operations between the two regions turn the five raw sums into the two means, the covariance
    (raw second moment minus product of means, the epsilon on the diagonal) and the three whitening weights, and
    reshape the five [1024] parameter vectors to [1, 1024].  Read at feature `f` from the contents `V1` the first
    region leaves: -/
theorem mid_arg0 (c : Dev nD) : V2 m ρ c main_arg0 = V1 m ρ c main_arg0 := by
  show StableHlo.after hostOps1 (W1 m ρ c) (Proc.devRef .tc main_arg0) = _
  after_results
theorem mid_arg1 (c : Dev nD) : V2 m ρ c main_arg1 = V1 m ρ c main_arg1 := by
  show StableHlo.after hostOps1 (W1 m ρ c) (Proc.devRef .tc main_arg1) = _
  after_results

/-- The five sums at feature `f`, as the first region leaves them. -/
abbrev a0 (c : Dev nD) (f : Fin 1024) : EReal := (V1 m ρ c main_v0_0 : SR.Idx → EReal) (ix2 0 f)
abbrev a1 (c : Dev nD) (f : Fin 1024) : EReal := (V1 m ρ c main_v0_1 : SR.Idx → EReal) (ix2 0 f)
abbrev a2 (c : Dev nD) (f : Fin 1024) : EReal := (V1 m ρ c main_v0_2 : SR.Idx → EReal) (ix2 0 f)
abbrev a3 (c : Dev nD) (f : Fin 1024) : EReal := (V1 m ρ c main_v0_3 : SR.Idx → EReal) (ix2 0 f)
abbrev a4 (c : Dev nD) (f : Fin 1024) : EReal := (V1 m ρ c main_v0_4 : SR.Idx → EReal) (ix2 0 f)
/-- The means and the covariance entries from them. -/
abbrev μr (c : Dev nD) (f : Fin 1024) : EReal := Ideal.div (a0 m ρ c f) cN
abbrev μi (c : Dev nD) (f : Fin 1024) : EReal := Ideal.div (a1 m ρ c f) cN
abbrev crr (c : Dev nD) (f : Fin 1024) : EReal := Ideal.div (a2 m ρ c f) cN - μr m ρ c f * μr m ρ c f + cEps
abbrev cii (c : Dev nD) (f : Fin 1024) : EReal := Ideal.div (a3 m ρ c f) cN - μi m ρ c f * μi m ρ c f + cEps
abbrev cri (c : Dev nD) (f : Fin 1024) : EReal := Ideal.div (a4 m ρ c f) cN - μr m ρ c f * μi m ρ c f

/-! ### The host stretch as vector terms over the five sums -/

section Terms
variable (s0 s1 s2 s3 s4 : FVec Ideal S1x1024 .f32)

/-- The three constants as [1, 1024] rows. -/
abbrev kN : FVec Ideal S1x1024 .f32 := broadcastInDim S1x1024 ![] bcast_S_S1x1024 (constant (F := Ideal) S_ .f32 0x47800000#32)
abbrev kEps : FVec Ideal S1x1024 .f32 := broadcastInDim S1x1024 ![] bcast_S_S1x1024 (constant (F := Ideal) S_ .f32 0x3727C5AC#32)
abbrev kTwo : FVec Ideal S1x1024 .f32 := broadcastInDim S1x1024 ![] bcast_S_S1x1024 (constant (F := Ideal) S_ .f32 0x40000000#32)
/-- Means, covariance entries, the determinant's root, the denominator and the three weights, as the host computes them. -/
abbrev tμr : FVec Ideal S1x1024 .f32 := Host.divf s0 kN
abbrev tμi : FVec Ideal S1x1024 .f32 := Host.divf s1 kN
abbrev tcrr : FVec Ideal S1x1024 .f32 := addf (subf (Host.divf s2 kN) (mulf (tμr s0) (tμr s0))) kEps
abbrev tcii : FVec Ideal S1x1024 .f32 := addf (subf (Host.divf s3 kN) (mulf (tμi s1) (tμi s1))) kEps
abbrev tcri : FVec Ideal S1x1024 .f32 := subf (Host.divf s4 kN) (mulf (tμr s0) (tμi s1))
abbrev ts : FVec Ideal S1x1024 .f32 :=
  Host.sqrt (subf (mulf (tcrr s0 s2) (tcii s1 s3)) (mulf (tcri s0 s1 s4) (tcri s0 s1 s4)))
abbrev tden : FVec Ideal S1x1024 .f32 :=
  mulf (ts s0 s1 s2 s3 s4) (Host.sqrt (addf (addf (tcrr s0 s2) (tcii s1 s3)) (mulf kTwo (ts s0 s1 s2 s3 s4))))
abbrev twrr : FVec Ideal S1x1024 .f32 := Host.divf (addf (tcii s1 s3) (ts s0 s1 s2 s3 s4)) (tden s0 s1 s2 s3 s4)
abbrev twii : FVec Ideal S1x1024 .f32 := Host.divf (addf (tcrr s0 s2) (ts s0 s1 s2 s3 s4)) (tden s0 s1 s2 s3 s4)
abbrev twri : FVec Ideal S1x1024 .f32 := Host.divf (Host.negf (tcri s0 s1 s4)) (tden s0 s1 s2 s3 s4)
end Terms

/-- The five sums as the first region leaves them, whole. -/
abbrev A0 (c : Dev nD) : FVec Ideal S1x1024 .f32 := V1 m ρ c main_v0_0
abbrev A1 (c : Dev nD) : FVec Ideal S1x1024 .f32 := V1 m ρ c main_v0_1
abbrev A2 (c : Dev nD) : FVec Ideal S1x1024 .f32 := V1 m ρ c main_v0_2
abbrev A3 (c : Dev nD) : FVec Ideal S1x1024 .f32 := V1 m ρ c main_v0_3
abbrev A4 (c : Dev nD) : FVec Ideal S1x1024 .f32 := V1 m ρ c main_v0_4

theorem term_v2 (c : Dev nD) : (V2 m ρ c main_v2 : FVec Ideal S1x1024 .f32) = tμr (A0 m ρ c) := by
  show StableHlo.after hostOps1 (W1 m ρ c) (Proc.devRef .tc main_v2) = _
  after_results <;> rfl
theorem term_v4 (c : Dev nD) : (V2 m ρ c main_v4 : FVec Ideal S1x1024 .f32) = tμi (A1 m ρ c) := by
  show StableHlo.after hostOps1 (W1 m ρ c) (Proc.devRef .tc main_v4) = _
  after_results <;> rfl
theorem term_v32 (c : Dev nD) : (V2 m ρ c main_v32 : FVec Ideal S1x1024 .f32)
    = twrr (A0 m ρ c) (A1 m ρ c) (A2 m ρ c) (A3 m ρ c) (A4 m ρ c) := by
  show StableHlo.after hostOps1 (W1 m ρ c) (Proc.devRef .tc main_v32) = _
  after_results_simp <;> rfl
theorem term_v34 (c : Dev nD) : (V2 m ρ c main_v34 : FVec Ideal S1x1024 .f32)
    = twii (A0 m ρ c) (A1 m ρ c) (A2 m ρ c) (A3 m ρ c) (A4 m ρ c) := by
  show StableHlo.after hostOps1 (W1 m ρ c) (Proc.devRef .tc main_v34) = _
  after_results_simp <;> rfl
theorem term_v36 (c : Dev nD) : (V2 m ρ c main_v36 : FVec Ideal S1x1024 .f32)
    = twri (A0 m ρ c) (A1 m ρ c) (A2 m ρ c) (A3 m ρ c) (A4 m ρ c) := by
  show StableHlo.after hostOps1 (W1 m ρ c) (Proc.devRef .tc main_v36) = _
  after_results_simp <;> rfl

/-- A [1024] vector reshaped to [1, 1024], read at (0, f). -/
theorem reshape_row (x : FVec Ideal S1024 .f32) (f : Fin 1024) :
    (shapeCast S1x1024 x shapeCasts_S1024_S1x1024 : SR.Idx → EReal) (ix2 0 f) = (x : SF.Idx → EReal) (ix1 f) := by
  refine shapeCast_apply x shapeCasts_S1024_S1x1024 (ix2 0 f) (ix1 f) ?_
  rw [Shape.rowMajor_val_one, Shape.rowMajor_val_two]
  show (f : ℕ) = (0 : ℕ) * 1024 + (f : ℕ)
  omega

theorem mid_v2 (c : Dev nD) (f : Fin 1024) : (V2 m ρ c main_v2 : SR.Idx → EReal) (ix2 0 f) = μr m ρ c f := by
  rw [term_v2]; rfl
theorem mid_v4 (c : Dev nD) (f : Fin 1024) : (V2 m ρ c main_v4 : SR.Idx → EReal) (ix2 0 f) = μi m ρ c f := by
  rw [term_v4]; rfl
theorem mid_v32 (c : Dev nD) (f : Fin 1024) :
    (V2 m ρ c main_v32 : SR.Idx → EReal) (ix2 0 f) = wRR (crr m ρ c f) (cii m ρ c f) (cri m ρ c f) := by
  rw [term_v32]; rfl
theorem mid_v36 (c : Dev nD) (f : Fin 1024) :
    (V2 m ρ c main_v36 : SR.Idx → EReal) (ix2 0 f) = wRI (crr m ρ c f) (cii m ρ c f) (cri m ρ c f) := by
  rw [term_v36]; rfl
theorem mid_v34 (c : Dev nD) (f : Fin 1024) :
    (V2 m ρ c main_v34 : SR.Idx → EReal) (ix2 0 f) = wII (crr m ρ c f) (cii m ρ c f) (cri m ρ c f) := by
  rw [term_v34]; rfl
theorem mid_v37 (c : Dev nD) (f : Fin 1024) :
    (V2 m ρ c main_v37 : SR.Idx → EReal) (ix2 0 f) = (V1 m ρ c main_arg2 : SF.Idx → EReal) (ix1 f) := by
  have e : (V2 m ρ c main_v37 : FVec Ideal S1x1024 .f32) = shapeCast S1x1024 (V1 m ρ c main_arg2) shapeCasts_S1024_S1x1024 := by
    show StableHlo.after hostOps1 (W1 m ρ c) (Proc.devRef .tc main_v37) = _
    after_results <;> rfl
  rw [e]; exact reshape_row _ f
theorem mid_v38 (c : Dev nD) (f : Fin 1024) :
    (V2 m ρ c main_v38 : SR.Idx → EReal) (ix2 0 f) = (V1 m ρ c main_arg3 : SF.Idx → EReal) (ix1 f) := by
  have e : (V2 m ρ c main_v38 : FVec Ideal S1x1024 .f32) = shapeCast S1x1024 (V1 m ρ c main_arg3) shapeCasts_S1024_S1x1024 := by
    show StableHlo.after hostOps1 (W1 m ρ c) (Proc.devRef .tc main_v38) = _
    after_results <;> rfl
  rw [e]; exact reshape_row _ f
theorem mid_v39 (c : Dev nD) (f : Fin 1024) :
    (V2 m ρ c main_v39 : SR.Idx → EReal) (ix2 0 f) = (V1 m ρ c main_arg4 : SF.Idx → EReal) (ix1 f) := by
  have e : (V2 m ρ c main_v39 : FVec Ideal S1x1024 .f32) = shapeCast S1x1024 (V1 m ρ c main_arg4) shapeCasts_S1024_S1x1024 := by
    show StableHlo.after hostOps1 (W1 m ρ c) (Proc.devRef .tc main_v39) = _
    after_results <;> rfl
  rw [e]; exact reshape_row _ f
theorem mid_v40 (c : Dev nD) (f : Fin 1024) :
    (V2 m ρ c main_v40 : SR.Idx → EReal) (ix2 0 f) = (V1 m ρ c main_arg5 : SF.Idx → EReal) (ix1 f) := by
  have e : (V2 m ρ c main_v40 : FVec Ideal S1x1024 .f32) = shapeCast S1x1024 (V1 m ρ c main_arg5) shapeCasts_S1024_S1x1024 := by
    show StableHlo.after hostOps1 (W1 m ρ c) (Proc.devRef .tc main_v40) = _
    after_results <;> rfl
  rw [e]; exact reshape_row _ f
theorem mid_v41 (c : Dev nD) (f : Fin 1024) :
    (V2 m ρ c main_v41 : SR.Idx → EReal) (ix2 0 f) = (V1 m ρ c main_arg6 : SF.Idx → EReal) (ix1 f) := by
  have e : (V2 m ρ c main_v41 : FVec Ideal S1x1024 .f32) = shapeCast S1x1024 (V1 m ρ c main_arg6) shapeCasts_S1024_S1x1024 := by
    show StableHlo.after hostOps1 (W1 m ρ c) (Proc.devRef .tc main_v41) = _
    after_results <;> rfl
  rw [e]; exact reshape_row _ f

end Cert.KernelIdeal.Mid

end
-- ==== Proof.KValue.lean ====
import proofs.«137192_j23862838297129_1_alg».proof.Proof.Region0
import proofs.«137192_j23862838297129_1_alg».proof.Proof.Region1
import proofs.«137192_j23862838297129_1_alg».proof.Proof.HostMid
import proofs.«137192_j23862838297129_1_alg».proof.Proof.KRun

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.CBN

variable (m : (ℓ : Loc nD τ sig) → Buf (Elt Ideal) ℓ) (ρ : Dev nD → PrngReg)

/-- The first region reads the two data arrays and leaves them as launched; the five parameter vectors are not
    among its arrays. -/
theorem v1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem v1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
theorem v1_arg2 (c : Dev nD) : V1 m ρ c main_arg2 = m ((c : Thread nD τ).loc main_arg2) :=
  W1_of_ne m ρ c main_arg2 (by decide)
theorem v1_arg3 (c : Dev nD) : V1 m ρ c main_arg3 = m ((c : Thread nD τ).loc main_arg3) :=
  W1_of_ne m ρ c main_arg3 (by decide)
theorem v1_arg4 (c : Dev nD) : V1 m ρ c main_arg4 = m ((c : Thread nD τ).loc main_arg4) :=
  W1_of_ne m ρ c main_arg4 (by decide)
theorem v1_arg5 (c : Dev nD) : V1 m ρ c main_arg5 = m ((c : Thread nD τ).loc main_arg5) :=
  W1_of_ne m ρ c main_arg5 (by decide)
theorem v1_arg6 (c : Dev nD) : V1 m ρ c main_arg6 = m ((c : Thread nD τ).loc main_arg6) :=
  W1_of_ne m ρ c main_arg6 (by decide)

/-- The five sums the first region leaves, at feature `f`. -/
theorem a0_eq (c : Dev nD) (f : Fin 1024) : Mid.a0 m ρ c f = colSum (m ((c : Thread nD τ).loc main_arg0)) f := by
  show (W1 m ρ c (Proc.devRef .tc main_v0_0) : SR.Idx → EReal) (ix2 0 f) = _
  rw [show W1 m ρ c (Proc.devRef .tc main_v0_0) = (dat0 (V0 m ρ) c).arrAt 2 cfg0.N from W1_arr m ρ c 2]
  exact (congrFun (Stats.sum_r (V0 m ρ) c) (ix2 0 f)).trans rfl
theorem a1_eq (c : Dev nD) (f : Fin 1024) : Mid.a1 m ρ c f = colSum (m ((c : Thread nD τ).loc main_arg1)) f := by
  show (W1 m ρ c (Proc.devRef .tc main_v0_1) : SR.Idx → EReal) (ix2 0 f) = _
  rw [show W1 m ρ c (Proc.devRef .tc main_v0_1) = (dat0 (V0 m ρ) c).arrAt 3 cfg0.N from W1_arr m ρ c 3]
  exact (congrFun (Stats.sum_i (V0 m ρ) c) (ix2 0 f)).trans rfl
theorem a2_eq (c : Dev nD) (f : Fin 1024) :
    Mid.a2 m ρ c f = colSum2 (m ((c : Thread nD τ).loc main_arg0)) (m ((c : Thread nD τ).loc main_arg0)) f := by
  show (W1 m ρ c (Proc.devRef .tc main_v0_2) : SR.Idx → EReal) (ix2 0 f) = _
  rw [show W1 m ρ c (Proc.devRef .tc main_v0_2) = (dat0 (V0 m ρ) c).arrAt 4 cfg0.N from W1_arr m ρ c 4]
  exact (congrFun (Stats.sum_rr (V0 m ρ) c) (ix2 0 f)).trans rfl
theorem a3_eq (c : Dev nD) (f : Fin 1024) :
    Mid.a3 m ρ c f = colSum2 (m ((c : Thread nD τ).loc main_arg1)) (m ((c : Thread nD τ).loc main_arg1)) f := by
  show (W1 m ρ c (Proc.devRef .tc main_v0_3) : SR.Idx → EReal) (ix2 0 f) = _
  rw [show W1 m ρ c (Proc.devRef .tc main_v0_3) = (dat0 (V0 m ρ) c).arrAt 5 cfg0.N from W1_arr m ρ c 5]
  exact (congrFun (Stats.sum_ii (V0 m ρ) c) (ix2 0 f)).trans rfl
theorem a4_eq (c : Dev nD) (f : Fin 1024) :
    Mid.a4 m ρ c f = colSum2 (m ((c : Thread nD τ).loc main_arg0)) (m ((c : Thread nD τ).loc main_arg1)) f := by
  show (W1 m ρ c (Proc.devRef .tc main_v0_4) : SR.Idx → EReal) (ix2 0 f) = _
  rw [show W1 m ρ c (Proc.devRef .tc main_v0_4) = (dat0 (V0 m ρ) c).arrAt 6 cfg0.N from W1_arr m ρ c 6]
  exact (congrFun (Stats.sum_ri (V0 m ρ) c) (ix2 0 f)).trans rfl

/-- The means and the covariance the host stretch computes are the specification's raw-moment ones. -/
theorem μr_eq (c : Dev nD) (f : Fin 1024) : Mid.μr m ρ c f = mean (m ((c : Thread nD τ).loc main_arg0)) f := by
  unfold mean; rw [← a0_eq]
theorem μi_eq (c : Dev nD) (f : Fin 1024) : Mid.μi m ρ c f = mean (m ((c : Thread nD τ).loc main_arg1)) f := by
  unfold mean; rw [← a1_eq]
theorem crr_eq (c : Dev nD) (f : Fin 1024) :
    Mid.crr m ρ c f = covRaw (m ((c : Thread nD τ).loc main_arg0)) (m ((c : Thread nD τ).loc main_arg0)) f + cEps := by
  unfold covRaw; rw [← a2_eq, ← μr_eq]
theorem cii_eq (c : Dev nD) (f : Fin 1024) :
    Mid.cii m ρ c f = covRaw (m ((c : Thread nD τ).loc main_arg1)) (m ((c : Thread nD τ).loc main_arg1)) f + cEps := by
  unfold covRaw; rw [← a3_eq, ← μi_eq]
theorem cri_eq (c : Dev nD) (f : Fin 1024) :
    Mid.cri m ρ c f = covRaw (m ((c : Thread nD τ).loc main_arg0)) (m ((c : Thread nD τ).loc main_arg1)) f := by
  unfold covRaw; rw [← a4_eq, ← μr_eq, ← μi_eq]

/-- The kernel's first result array: the whole map with the raw-moment covariance. -/
theorem out_r (c : Dev nD) : W3 m ρ c (Proc.devRef .tc main_v42_0)
    = outR covRaw (m ((c : Thread nD τ).loc main_arg0)) (m ((c : Thread nD τ).loc main_arg1))
        (m ((c : Thread nD τ).loc main_arg2)) (m ((c : Thread nD τ).loc main_arg3)) (m ((c : Thread nD τ).loc main_arg5)) := by
  rw [show W3 m ρ c (Proc.devRef .tc main_v42_0) = (dat1 (V2 m ρ) c).arrAt 12 cfg1.N from W3_arr m ρ c 12]
  refine (Whiten.out_r (V2 m ρ) c).trans ?_
  funext i
  obtain ⟨n, f, rfl⟩ : ∃ (n : Fin 65536) (f : Fin 1024), i = ix2 n f := ⟨i 0, i 1, eq_ix2 i⟩
  show affR (V2 m ρ c main_arg0 (ix2 n f)) (V2 m ρ c main_arg1 (ix2 n f))
      ((V2 m ρ c main_v2 : SR.Idx → EReal) (ix2 0 f)) ((V2 m ρ c main_v4 : SR.Idx → EReal) (ix2 0 f))
      ((V2 m ρ c main_v32 : SR.Idx → EReal) (ix2 0 f)) ((V2 m ρ c main_v36 : SR.Idx → EReal) (ix2 0 f))
      ((V2 m ρ c main_v34 : SR.Idx → EReal) (ix2 0 f))
      ((V2 m ρ c main_v37 : SR.Idx → EReal) (ix2 0 f)) ((V2 m ρ c main_v38 : SR.Idx → EReal) (ix2 0 f))
      ((V2 m ρ c main_v40 : SR.Idx → EReal) (ix2 0 f)) = _
  rw [Mid.mid_arg0, Mid.mid_arg1, v1_arg0, v1_arg1, Mid.mid_v2, Mid.mid_v4, Mid.mid_v32, Mid.mid_v36, Mid.mid_v34,
    Mid.mid_v37, Mid.mid_v38, Mid.mid_v40, v1_arg2, v1_arg3, v1_arg5, crr_eq, cii_eq, cri_eq, μr_eq, μi_eq]
  rfl

/-- The kernel's second result array. -/
theorem out_i (c : Dev nD) : W3 m ρ c (Proc.devRef .tc main_v42_1)
    = outI covRaw (m ((c : Thread nD τ).loc main_arg0)) (m ((c : Thread nD τ).loc main_arg1))
        (m ((c : Thread nD τ).loc main_arg3)) (m ((c : Thread nD τ).loc main_arg4)) (m ((c : Thread nD τ).loc main_arg6)) := by
  rw [show W3 m ρ c (Proc.devRef .tc main_v42_1) = (dat1 (V2 m ρ) c).arrAt 13 cfg1.N from W3_arr m ρ c 13]
  refine (Whiten.out_i (V2 m ρ) c).trans ?_
  funext i
  obtain ⟨n, f, rfl⟩ : ∃ (n : Fin 65536) (f : Fin 1024), i = ix2 n f := ⟨i 0, i 1, eq_ix2 i⟩
  show affI (V2 m ρ c main_arg0 (ix2 n f)) (V2 m ρ c main_arg1 (ix2 n f))
      ((V2 m ρ c main_v2 : SR.Idx → EReal) (ix2 0 f)) ((V2 m ρ c main_v4 : SR.Idx → EReal) (ix2 0 f))
      ((V2 m ρ c main_v32 : SR.Idx → EReal) (ix2 0 f)) ((V2 m ρ c main_v36 : SR.Idx → EReal) (ix2 0 f))
      ((V2 m ρ c main_v34 : SR.Idx → EReal) (ix2 0 f))
      ((V2 m ρ c main_v38 : SR.Idx → EReal) (ix2 0 f)) ((V2 m ρ c main_v39 : SR.Idx → EReal) (ix2 0 f))
      ((V2 m ρ c main_v41 : SR.Idx → EReal) (ix2 0 f)) = _
  rw [Mid.mid_arg0, Mid.mid_arg1, v1_arg0, v1_arg1, Mid.mid_v2, Mid.mid_v4, Mid.mid_v32, Mid.mid_v36, Mid.mid_v34,
    Mid.mid_v38, Mid.mid_v39, Mid.mid_v41, v1_arg3, v1_arg4, v1_arg6, crr_eq, cii_eq, cri_eq, μr_eq, μi_eq]
  rfl

end Cert.KernelIdeal.KValue

end
-- ==== Proof.RefRead.lean ====
import proofs.«137192_j23862838297129_1_alg».proof.Proof.Gen.ReferenceIdeal.Read
import proofs.«137192_j23862838297129_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.CBN

/-! ### Index equations: a column reduction reads row `k` of column `f`; a per-feature array broadcast along the
    rows reads feature `f` at every `(n, f)`. -/

theorem red_idx_v0 (f : Fin 1024) (k : Fin 65536) : idx_main_v0 (ix1 f) k = ix2 k f :=
  funext fun a => Fin.ext (by match a with | ⟨0, _⟩ => rfl | ⟨1, _⟩ => rfl)
theorem red_idx_v3 (f : Fin 1024) (k : Fin 65536) : idx_main_v3 (ix1 f) k = ix2 k f :=
  funext fun a => Fin.ext (by match a with | ⟨0, _⟩ => rfl | ⟨1, _⟩ => rfl)
theorem red_idx_v13 (f : Fin 1024) (k : Fin 65536) : idx_main_v13 (ix1 f) k = ix2 k f :=
  funext fun a => Fin.ext (by match a with | ⟨0, _⟩ => rfl | ⟨1, _⟩ => rfl)
theorem red_idx_v19 (f : Fin 1024) (k : Fin 65536) : idx_main_v19 (ix1 f) k = ix2 k f :=
  funext fun a => Fin.ext (by match a with | ⟨0, _⟩ => rfl | ⟨1, _⟩ => rfl)
theorem red_idx_v25 (f : Fin 1024) (k : Fin 65536) : idx_main_v25 (ix1 f) k = ix2 k f :=
  funext fun a => Fin.ext (by match a with | ⟨0, _⟩ => rfl | ⟨1, _⟩ => rfl)
theorem bc_idx_v7 (n : Fin 65536) (f : Fin 1024) : idx_main_v6 (idx_main_v7 (ix2 n f)) = ix1 f :=
  funext fun a => Fin.ext (by match a with | ⟨0, _⟩ => rfl)
theorem bc_idx_v10 (n : Fin 65536) (f : Fin 1024) : idx_main_v9 (idx_main_v10 (ix2 n f)) = ix1 f :=
  funext fun a => Fin.ext (by match a with | ⟨0, _⟩ => rfl)
theorem bc_idx_v45 (n : Fin 65536) (f : Fin 1024) : idx_main_v44 (idx_main_v45 (ix2 n f)) = ix1 f :=
  funext fun a => Fin.ext (by match a with | ⟨0, _⟩ => rfl)
theorem bc_idx_v48 (n : Fin 65536) (f : Fin 1024) : idx_main_v47 (idx_main_v48 (ix2 n f)) = ix1 f :=
  funext fun a => Fin.ext (by match a with | ⟨0, _⟩ => rfl)
theorem bc_idx_v52 (n : Fin 65536) (f : Fin 1024) : idx_main_v51 (idx_main_v52 (ix2 n f)) = ix1 f :=
  funext fun a => Fin.ext (by match a with | ⟨0, _⟩ => rfl)
theorem bc_idx_v55 (n : Fin 65536) (f : Fin 1024) : idx_main_v54 (idx_main_v55 (ix2 n f)) = ix1 f :=
  funext fun a => Fin.ext (by match a with | ⟨0, _⟩ => rfl)
theorem bc_idx_v59 (n : Fin 65536) (f : Fin 1024) : idx_main_v58 (idx_main_v59 (ix2 n f)) = ix1 f :=
  funext fun a => Fin.ext (by match a with | ⟨0, _⟩ => rfl)
theorem bc_idx_v62 (n : Fin 65536) (f : Fin 1024) : idx_main_v61 (idx_main_v62 (ix2 n f)) = ix1 f :=
  funext fun a => Fin.ext (by match a with | ⟨0, _⟩ => rfl)
theorem bc_idx_v66 (n : Fin 65536) (f : Fin 1024) : idx_main_v65 (idx_main_v66 (ix2 n f)) = ix1 f :=
  funext fun a => Fin.ext (by match a with | ⟨0, _⟩ => rfl)
theorem bc_idx_v69 (n : Fin 65536) (f : Fin 1024) : idx_main_v68 (idx_main_v69 (ix2 n f)) = ix1 f :=
  funext fun a => Fin.ext (by match a with | ⟨0, _⟩ => rfl)
theorem bc_idx_v72 (n : Fin 65536) (f : Fin 1024) : idx_main_v71 (idx_main_v72 (ix2 n f)) = ix1 f :=
  funext fun a => Fin.ext (by match a with | ⟨0, _⟩ => rfl)
theorem bc_idx_v76 (n : Fin 65536) (f : Fin 1024) : idx_main_v75 (idx_main_v76 (ix2 n f)) = ix1 f :=
  funext fun a => Fin.ext (by match a with | ⟨0, _⟩ => rfl)

/-! ### The column means -/

/-- The first stage pair: the column sum from the zero word, divided by 65536.0, is the mean. -/
theorem v2_at (x0 : SN.Idx → EReal) (f : Fin 1024) : val_main_v2 (F := Ideal) x0 (ix1 f) = mean x0 f := by
  rw [val_main_v2_apply, val_main_v0_apply, val_main_v1_apply, val_main_cst_apply, val_main_cst_0_apply]
  simp only [red_idx_v0, Ideal.hostDivf_def, Ideal.ofBits_def, Ideal.ofBits_zero_f32, zero_add]
  rfl
theorem v5_at (x1 : SN.Idx → EReal) (f : Fin 1024) : val_main_v5 (F := Ideal) x1 (ix1 f) = mean x1 f := by
  rw [val_main_v5_apply, val_main_v3_apply, val_main_v4_apply, val_main_cst_1_apply, val_main_cst_2_apply]
  simp only [red_idx_v3, Ideal.hostDivf_def, Ideal.ofBits_def, Ideal.ofBits_zero_f32, zero_add]
  rfl

/-! ### The centred data -/

theorem v8_at (x0 : SN.Idx → EReal) (n : Fin 65536) (f : Fin 1024) :
    val_main_v8 (F := Ideal) x0 (ix2 n f) = x0 (ix2 n f) - mean x0 f := by
  rw [val_main_v8_apply, val_main_v7_apply, val_main_v6_apply, bc_idx_v7, v2_at]
  rfl
theorem v11_at (x1 : SN.Idx → EReal) (n : Fin 65536) (f : Fin 1024) :
    val_main_v11 (F := Ideal) x1 (ix2 n f) = x1 (ix2 n f) - mean x1 f := by
  rw [val_main_v11_apply, val_main_v10_apply, val_main_v9_apply, bc_idx_v10, v5_at]
  rfl

/-! ### The covariance of the centred columns, epsilon on the diagonal -/

theorem v17_at (x0 : SN.Idx → EReal) (f : Fin 1024) :
    val_main_v17 (F := Ideal) x0 (ix1 f) = covCen x0 x0 f + cEps := by
  rw [val_main_v17_apply, val_main_v15_apply, val_main_v13_apply, val_main_v14_apply, val_main_v16_apply,
    val_main_cst_3_apply, val_main_cst_4_apply, val_main_cst_5_apply]
  simp only [val_main_v12_apply, red_idx_v13, v8_at, Ideal.hostDivf_def, Ideal.addf_def, Ideal.mulf_def,
    Ideal.ofBits_def, Ideal.ofBits_zero_f32, zero_add]
  rfl
theorem v23_at (x1 : SN.Idx → EReal) (f : Fin 1024) :
    val_main_v23 (F := Ideal) x1 (ix1 f) = covCen x1 x1 f + cEps := by
  rw [val_main_v23_apply, val_main_v21_apply, val_main_v19_apply, val_main_v20_apply, val_main_v22_apply,
    val_main_cst_6_apply, val_main_cst_7_apply, val_main_cst_8_apply]
  simp only [val_main_v18_apply, red_idx_v19, v11_at, Ideal.hostDivf_def, Ideal.addf_def, Ideal.mulf_def,
    Ideal.ofBits_def, Ideal.ofBits_zero_f32, zero_add]
  rfl
theorem v27_at (x0 x1 : SN.Idx → EReal) (f : Fin 1024) :
    val_main_v27 (F := Ideal) x0 x1 (ix1 f) = covCen x0 x1 f := by
  rw [val_main_v27_apply, val_main_v25_apply, val_main_v26_apply, val_main_cst_9_apply, val_main_cst_10_apply]
  simp only [val_main_v24_apply, red_idx_v25, v8_at, v11_at, Ideal.hostDivf_def, Ideal.mulf_def,
    Ideal.ofBits_def, Ideal.ofBits_zero_f32, zero_add]
  rfl

/-! ### The root of the determinant, the common denominator and the three weights -/

theorem v31_at (x0 x1 : SN.Idx → EReal) (f : Fin 1024) :
    val_main_v31 (F := Ideal) x0 x1 (ix1 f)
      = sdet (covCen x0 x0 f + cEps) (covCen x1 x1 f + cEps) (covCen x0 x1 f) := by
  rw [val_main_v31_apply, val_main_v30_apply, val_main_v28_apply, val_main_v29_apply, v17_at, v23_at, v27_at]
  rfl
theorem v37_at (x0 x1 : SN.Idx → EReal) (f : Fin 1024) :
    val_main_v37 (F := Ideal) x0 x1 (ix1 f)
      = wden (covCen x0 x0 f + cEps) (covCen x1 x1 f + cEps) (covCen x0 x1 f) := by
  rw [val_main_v37_apply, val_main_v36_apply, val_main_v35_apply, val_main_v32_apply, val_main_v34_apply,
    val_main_v33_apply, val_main_cst_11_apply, v31_at, v17_at, v23_at]
  rfl
theorem v39_at (x0 x1 : SN.Idx → EReal) (f : Fin 1024) :
    val_main_v39 (F := Ideal) x0 x1 (ix1 f)
      = wRR (covCen x0 x0 f + cEps) (covCen x1 x1 f + cEps) (covCen x0 x1 f) := by
  rw [val_main_v39_apply, val_main_v38_apply, v37_at, v31_at, v23_at]
  rfl
theorem v41_at (x0 x1 : SN.Idx → EReal) (f : Fin 1024) :
    val_main_v41 (F := Ideal) x0 x1 (ix1 f)
      = wII (covCen x0 x0 f + cEps) (covCen x1 x1 f + cEps) (covCen x0 x1 f) := by
  rw [val_main_v41_apply, val_main_v40_apply, v37_at, v31_at, v17_at]
  rfl
theorem v43_at (x0 x1 : SN.Idx → EReal) (f : Fin 1024) :
    val_main_v43 (F := Ideal) x0 x1 (ix1 f)
      = wRI (covCen x0 x0 f + cEps) (covCen x1 x1 f + cEps) (covCen x0 x1 f) := by
  rw [val_main_v43_apply, val_main_v42_apply, v37_at, v27_at]
  rfl

/-! ### The whitened pair -/

theorem v50_at (x0 x1 : SN.Idx → EReal) (n : Fin 65536) (f : Fin 1024) :
    val_main_v50 (F := Ideal) x0 x1 (ix2 n f)
      = wRR (covCen x0 x0 f + cEps) (covCen x1 x1 f + cEps) (covCen x0 x1 f) * (x0 (ix2 n f) - mean x0 f)
        + wRI (covCen x0 x0 f + cEps) (covCen x1 x1 f + cEps) (covCen x0 x1 f) * (x1 (ix2 n f) - mean x1 f) := by
  rw [val_main_v50_apply, val_main_v46_apply, val_main_v49_apply, val_main_v45_apply, val_main_v44_apply,
    val_main_v48_apply, val_main_v47_apply, bc_idx_v45, bc_idx_v48, v39_at, v43_at, v8_at, v11_at]
  rfl
theorem v57_at (x0 x1 : SN.Idx → EReal) (n : Fin 65536) (f : Fin 1024) :
    val_main_v57 (F := Ideal) x0 x1 (ix2 n f)
      = wRI (covCen x0 x0 f + cEps) (covCen x1 x1 f + cEps) (covCen x0 x1 f) * (x0 (ix2 n f) - mean x0 f)
        + wII (covCen x0 x0 f + cEps) (covCen x1 x1 f + cEps) (covCen x0 x1 f) * (x1 (ix2 n f) - mean x1 f) := by
  rw [val_main_v57_apply, val_main_v53_apply, val_main_v56_apply, val_main_v52_apply, val_main_v51_apply,
    val_main_v55_apply, val_main_v54_apply, bc_idx_v52, bc_idx_v55, v41_at, v43_at, v8_at, v11_at]
  rfl

/-- The reference centres the data by the column means, takes the covariance of the CENTRED columns (epsilon on the
    diagonal), forms the closed-form inverse square root and applies the affine map: its two results, read index
    by index, are the whole maps of the specification with the centred covariance. -/
theorem ref_outR (x0 x1 : SN.Idx → EReal) (x2 x3 x5 : SF.Idx → EReal) :
    Read.val_main_v67 (F := Ideal) x0 x1 x2 x3 x5 = outR covCen x0 x1 x2 x3 x5 := by
  funext i
  obtain ⟨n, f, rfl⟩ : ∃ (n : Fin 65536) (f : Fin 1024), i = ix2 n f := ⟨i 0, i 1, eq_ix2 i⟩
  rw [val_main_v67_apply, val_main_v64_apply, val_main_v60_apply, val_main_v63_apply, val_main_v59_apply,
    val_main_v58_apply, val_main_v62_apply, val_main_v61_apply, val_main_v66_apply, val_main_v65_apply,
    bc_idx_v59, bc_idx_v62, bc_idx_v66, v50_at, v57_at]
  rfl
theorem ref_outI (x0 x1 : SN.Idx → EReal) (x3 x4 x6 : SF.Idx → EReal) :
    Read.val_main_v77 (F := Ideal) x0 x1 x3 x4 x6 = outI covCen x0 x1 x3 x4 x6 := by
  funext i
  obtain ⟨n, f, rfl⟩ : ∃ (n : Fin 65536) (f : Fin 1024), i = ix2 n f := ⟨i 0, i 1, eq_ix2 i⟩
  rw [val_main_v77_apply, val_main_v74_apply, val_main_v70_apply, val_main_v73_apply, val_main_v69_apply,
    val_main_v68_apply, val_main_v72_apply, val_main_v71_apply, val_main_v76_apply, val_main_v75_apply,
    bc_idx_v69, bc_idx_v72, bc_idx_v76, v50_at, v57_at]
  rfl

end Cert.ReferenceIdeal.RefValue

end
-- ==== Proof.Finite.lean ====
import proofs.«137192_j23862838297129_1_alg».proof.Pre_finite_inputs
import proofs.«137192_j23862838297129_1_alg».proof.Proof.Gen.Pre_finite_inputs
import proofs.«137192_j23862838297129_1_alg».proof.Proof.Spec
import Idealize.ShloMosaic.Lib.ReduceAll
import Idealize.ShloMosaic.PureOps.Ideal.Laws

noncomputable section

open Idealize.ShloMosaic Idealize.ShloMosaic.ValueIdx

namespace Cert.Finite

open Cert.CBN

/-- The scalar shape has exactly one index. -/
instance subsingleton_S_Idx : Subsingleton Cert.Pre_finite_inputs.S_.Idx := ⟨fun a b => funext fun d => d.elim0⟩

/-- The word 0x7F800000 denotes +∞. -/
theorem inf_bits : Ideal.ofBits .f32 0x7F800000#32 = (⊤ : EReal) := by simp [Ideal.ofBits, Ideal.ieee]

/-- An extended real whose absolute value max x (−x) compares strictly below +∞ is a real number. -/
theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | top => simp [Ideal.cmp] at h
  | coe r => exact ⟨r, rfl⟩

/-- The precondition says every entry of every input has absolute value below +∞; for the two data arrays that
    makes every entry a real number. -/
theorem data_finite (x0 x1 : SN.Idx → EReal) (x2 x3 x4 x5 x6 : SF.Idx → EReal)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) := by
  have h0 := congrFun h ValueIdx.ix0
  unfold Cert.Pre_finite_inputs.fn Cert.Pre_finite_inputs.fn_part1 at h0
  dsimp only at h0
  have p5 := (IntOp.andi_eq_one.1 h0).1
  have p4 := (IntOp.andi_eq_one.1 p5).1
  have p3 := (IntOp.andi_eq_one.1 p4).1
  have p2 := (IntOp.andi_eq_one.1 p3).1
  have p1 := (IntOp.andi_eq_one.1 p2).1
  obtain ⟨a0, a1⟩ := IntOp.andi_eq_one.1 p1
  refine ⟨fun i => ?_, fun i => ?_⟩
  · exact real_of_abs_lt (x0 i) (Host.reduce_andi_all _ _ _ _ _ a0 i)
  · exact real_of_abs_lt (x1 i) (Host.reduce_andi_all _ _ _ _ _ a1 i)

end Cert.Finite

end
-- ==== Proof.lean ====
/-
  The certificate of a complex batch normalisation over f32[65536, 1024] (two means, a 2×2 covariance per feature with
  an epsilon on its diagonal, the closed-form inverse square root of that matrix, a symmetric 2×2 gain and a complex
  bias) computed by two kernel regions against its plain reference.

  The kernel's first region accumulates the five RAW moments Σx, Σy, Σx², Σy², Σxy per feature over 64 row blocks; host
  operations turn them into means, the covariance E[xy] − E[x]E[y] and the whitening weights; the second region applies
  the whitening and the affine map row block by row block.  The reference instead centres the data and takes the
  covariance of the CENTRED columns.  On the extended reals the two covariances agree when every datum is finite
  (the moments identity, Proof/Spec.lean), which is what the precondition provides; everything downstream is the same
  scalar function of the same quantities on both sides.
-/
import proofs.«137192_j23862838297129_1_alg».proof.Defs
import proofs.«137192_j23862838297129_1_alg».proof.Proof.Gen.Kernel
import proofs.«137192_j23862838297129_1_alg».proof.Proof.Gen.Kernel.Skeleton
import proofs.«137192_j23862838297129_1_alg».proof.Proof.Gen.Kernel.Launch
import proofs.«137192_j23862838297129_1_alg».proof.Proof.Gen.Kernel.Points
import proofs.«137192_j23862838297129_1_alg».proof.Proof.Gen.Kernel.Frame
import proofs.«137192_j23862838297129_1_alg».proof.Proof.Gen.KernelIdeal
import proofs.«137192_j23862838297129_1_alg».proof.Proof.Gen.KernelIdeal.Skeleton
import proofs.«137192_j23862838297129_1_alg».proof.Proof.Gen.KernelIdeal.Launch
import proofs.«137192_j23862838297129_1_alg».proof.Proof.Gen.KernelIdeal.Points
import proofs.«137192_j23862838297129_1_alg».proof.Proof.Gen.KernelIdeal.Frame
import proofs.«137192_j23862838297129_1_alg».proof.Proof.Gen.ReferenceIdeal
import proofs.«137192_j23862838297129_1_alg».proof.Proof.Gen.ReferenceIdeal.Run
import proofs.«137192_j23862838297129_1_alg».proof.Proof.Gen.ReferenceIdeal.Read
import proofs.«137192_j23862838297129_1_alg».proof.Proof.Gen.Pre_finite_inputs
import proofs.«137192_j23862838297129_1_alg».proof.Proof.Spec
import proofs.«137192_j23862838297129_1_alg».proof.Proof.KValue
import proofs.«137192_j23862838297129_1_alg».proof.Proof.RefRead
import proofs.«137192_j23862838297129_1_alg».proof.Proof.Finite
import Idealize.ShloMosaic.Adequacy
import Idealize.ShloMosaic.Init

noncomputable section

namespace Cert.Proof

open Idealize.ShloMosaic Idealize.SL.Sem Cert.CBN

/-- The reference has no kernel: its frame is its run with the results dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- Both programs end with the same two arrays: the kernel's run leaves the whole maps over the raw-moment
    covariance, the reference's the whole maps over the centred covariance, and for finite data these agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => outR covRaw (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2))
      (m ((c.tc : Thread _ Cert.KernelIdeal.τ).loc Cert.KernelIdeal.main_arg3))
      (m ((c.tc : Thread _ Cert.KernelIdeal.τ).loc Cert.KernelIdeal.main_arg5)),
    fun c => outI covRaw (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg3))
      (m ((c.tc : Thread _ Cert.KernelIdeal.τ).loc Cert.KernelIdeal.main_arg4))
      (m ((c.tc : Thread _ Cert.KernelIdeal.τ).loc Cert.KernelIdeal.main_arg6)), ?_, ?_⟩
  · exact (θ_run Cert.KernelIdeal.defs _ _).mono
      (fun _ h c => ⟨(h c).1.trans (Cert.KernelIdeal.KValue.out_r m ρ c),
        (h c).2.1.trans (Cert.KernelIdeal.KValue.out_i m ρ c), (h c).2.2⟩)
      (Cert.KernelIdeal.RunNamed.run_named (F := Ideal) m ρ)
  · refine (θ_run Cert.ReferenceIdeal.defs _ _).mono (fun _ h c => ?_) (Cert.ReferenceIdeal.Value.run (F := Ideal) m' ρ')
    obtain ⟨hX, hY⟩ := Cert.Finite.data_finite _ _ _ _ _ _ _ (hpre c)
    refine ⟨(h c).1.trans ?_, (h c).2.1.trans ?_, (h c).2.2⟩
    · rw [Cert.ReferenceIdeal.Read.val_main_v67_eq, Cert.ReferenceIdeal.RefValue.ref_outR, (hagree c).1, (hagree c).2.1,
        (hagree c).2.2.1, (hagree c).2.2.2.1, (hagree c).2.2.2.2.2.1]
      exact outR_cen_eq_raw _ _ _ _ _ hX hY
    · rw [Cert.ReferenceIdeal.Read.val_main_v77_eq, Cert.ReferenceIdeal.RefValue.ref_outI, (hagree c).1, (hagree c).2.1,
        (hagree c).2.2.2.1, (hagree c).2.2.2.2.1, (hagree c).2.2.2.2.2.2]
      exact outI_cen_eq_raw _ _ _ _ _ hX hY

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
